-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256 : Shape := ⟨2, ![64, 256]⟩
abbrev S64x512x256 : Shape := ⟨3, ![64, 512, 256]⟩
abbrev S64x512 : Shape := ⟨2, ![64, 512]⟩
abbrev S64x512x1000 : Shape := ⟨3, ![64, 512, 1000]⟩
abbrev S64 : Shape := ⟨1, ![64]⟩
abbrev S_ : Shape := ⟨0, ![]⟩

class Facts : Prop where
  bcast_S_S64x256 : S_.BroadcastsInDim S64x256 (![] : Fin 0 → Fin S64x256.rank)
  reducesTo_S64x256_S_d0_1 : S64x256.ReducesTo [0, 1] S_
  h_S_ : 0 < S_.numel
  bcast_S_S64x512x256 : S_.BroadcastsInDim S64x512x256 (![] : Fin 0 → Fin S64x512x256.rank)
  reducesTo_S64x512x256_S_d0_1_2 : S64x512x256.ReducesTo [0, 1, 2] S_
  bcast_S_S64x512 : S_.BroadcastsInDim S64x512 (![] : Fin 0 → Fin S64x512.rank)
  reducesTo_S64x512_S_d0_1 : S64x512.ReducesTo [0, 1] S_
  bcast_S_S64x512x1000 : S_.BroadcastsInDim S64x512x1000 (![] : Fin 0 → Fin S64x512x1000.rank)
  reducesTo_S64x512x1000_S_d0_1_2 : S64x512x1000.ReducesTo [0, 1, 2] S_

variable [Facts]

def fn_part1 {F : FTy → Type} [FloatOps F] (main_v13 : IVec S_ 1) (main_v16 : IVec S64x512x1000 1) : IVec S_ 1 :=
  let main_c_5 : IVec S_ 1 := constantI S_ 1 1#1
  let main_v17 : IVec S_ 1 := (fun x v => Host.reduce IntOp.andi x v reducesTo_S64x512x1000_S_d0_1_2 h_S_) main_v16 main_c_5
  let main_v18 : IVec S_ 1 := andi main_v13 main_v17
  main_v18

def fn {F : FTy → Type} [FloatOps F] (main_arg0 : FVec F S64x256 .f32) (main_arg1 : FVec F S64x512x256 .f32) (main_arg2 : FVec F S64x512 .f32) (main_arg3 : FVec F S64x512x1000 .f32) (main_arg4 : IVec S64 32) (main_arg5 : IVec S64 32) : IVec S_ 1 :=
  let main_v0 : FVec F S64x256 .f32 := Host.absf main_arg0
  let main_cst : FVec F S_ .f32 := constant S_ .f32 0x7F800000#32
  let main_v1 : FVec F S64x256 .f32 := broadcastInDim S64x256 ![] bcast_S_S64x256 main_cst
  let main_v2 : IVec S64x256 1 := cmpf .olt main_v0 main_v1
  let main_c : IVec S_ 1 := constantI S_ 1 1#1
  let main_v3 : IVec S_ 1 := (fun x v => Host.reduce IntOp.andi x v reducesTo_S64x256_S_d0_1 h_S_) main_v2 main_c
  let main_v4 : FVec F S64x512x256 .f32 := Host.absf main_arg1
  let main_cst_0 : FVec F S_ .f32 := constant S_ .f32 0x7F800000#32
  let main_v5 : FVec F S64x512x256 .f32 := broadcastInDim S64x512x256 ![] bcast_S_S64x512x256 main_cst_0
  let main_v6 : IVec S64x512x256 1 := cmpf .olt main_v4 main_v5
  let main_c_1 : IVec S_ 1 := constantI S_ 1 1#1
  let main_v7 : IVec S_ 1 := (fun x v => Host.reduce IntOp.andi x v reducesTo_S64x512x256_S_d0_1_2 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S64x512x1000 .f32 := Host.absf main_arg3
  let main_cst_4 : FVec F S_ .f32 := constant S_ .f32 0x7F800000#32
  let main_v15 : FVec F S64x512x1000 .f32 := broadcastInDim S64x512x1000 ![] bcast_S_S64x512x1000 main_cst_4
  let main_v16 : IVec S64x512x1000 1 := cmpf .olt main_v14 main_v15
  fn_part1 (F := F) main_v13 main_v16
-- ==== Kernel.lean ====
abbrev S64x256 : Shape := ⟨2, ![64, 256]⟩
abbrev S64x512x256 : Shape := ⟨3, ![64, 512, 256]⟩
abbrev S64x512 : Shape := ⟨2, ![64, 512]⟩
abbrev S64x512x1000 : Shape := ⟨3, ![64, 512, 1000]⟩
abbrev S64 : Shape := ⟨1, ![64]⟩
abbrev S8x256 : Shape := ⟨2, ![8, 256]⟩
abbrev S8x512x256 : Shape := ⟨3, ![8, 512, 256]⟩
abbrev S8x512 : Shape := ⟨2, ![8, 512]⟩
abbrev S8x1x256 : Shape := ⟨3, ![8, 1, 256]⟩
abbrev S8x256x1000 : Shape := ⟨3, ![8, 256, 1000]⟩
abbrev S8x256x1 : Shape := ⟨3, ![8, 256, 1]⟩
abbrev S64x1x1 : Shape := ⟨3, ![64, 1, 1]⟩
abbrev S64x512x1 : Shape := ⟨3, ![64, 512, 1]⟩
abbrev S_ : Shape := ⟨0, ![]⟩
abbrev S64x512x1x1 : Shape := ⟨4, ![64, 512, 1, 1]⟩
abbrev S1 : Shape := ⟨1, ![1]⟩
abbrev S1x1x1x1 : Shape := ⟨4, ![1, 1, 1, 1]⟩
abbrev S512 : Shape := ⟨1, ![512]⟩
abbrev S1x512 : Shape := ⟨2, ![1, 512]⟩
abbrev S64x1 : Shape := ⟨2, ![64, 1]⟩

abbrev nBuf : Space → Nat
  | .hbm => 72
  | .vmem => 10
  | .smem => 0
  | _ => 0

abbrev bufTy : (tb : Table) → Fin (tcTables nBuf tb) → BufTy
  | .hbm, ⟨0, _⟩ => ⟨S64x256, .f32⟩
  | .hbm, ⟨1, _⟩ => ⟨S64x512x256, .f32⟩
  | .hbm, ⟨2, _⟩ => ⟨S64x512, .f32⟩
  | .hbm, ⟨3, _⟩ => ⟨S64x512x1000, .f32⟩
  | .hbm, ⟨4, _⟩ => ⟨S64, .i32⟩
  | .hbm, ⟨5, _⟩ => ⟨S64, .i32⟩
  | .hbm, ⟨6, _⟩ => ⟨S64x512, .f32⟩
  | .hbm, ⟨7, _⟩ => ⟨S64x512, .f32⟩
  | .hbm, ⟨8, _⟩ => ⟨S64x1x1, .i32⟩
  | .hbm, ⟨9, _⟩ => ⟨S64x512x1, .i32⟩
  | .hbm, ⟨10, _⟩ => ⟨S_, .i32⟩
  | .hbm, ⟨11, _⟩ => ⟨S64x512x1, .i32⟩
  | .hbm, ⟨12, _⟩ => ⟨S64x512x1, .i1⟩
  | .hbm, ⟨13, _⟩ => ⟨S_, .i32⟩
  | .hbm, ⟨14, _⟩ => ⟨S64x512x1, .i32⟩
  | .hbm, ⟨15, _⟩ => ⟨S64x512x1, .i32⟩
  | .hbm, ⟨16, _⟩ => ⟨S64x512x1, .i32⟩
  | .hbm, ⟨17, _⟩ => ⟨S64x512x1x1, .i32⟩
  | .hbm, ⟨18, _⟩ => ⟨S1, .i32⟩
  | .hbm, ⟨19, _⟩ => ⟨S_, .i32⟩
  | .hbm, ⟨20, _⟩ => ⟨S64x512x1x1, .i32⟩
  | .hbm, ⟨21, _⟩ => ⟨S64x512x1x1, .i1⟩
  | .hbm, ⟨22, _⟩ => ⟨S1x1x1x1, .i32⟩
  | .hbm, ⟨23, _⟩ => ⟨S64x512x1x1, .i32⟩
  | .hbm, ⟨24, _⟩ => ⟨S64x512x1x1, .i1⟩
  | .hbm, ⟨25, _⟩ => ⟨S64x512x1x1, .i1⟩
  | .hbm, ⟨26, _⟩ => ⟨S_, .i1⟩
  | .hbm, ⟨27, _⟩ => ⟨S64x512x1, .i1⟩
  | .hbm, ⟨28, _⟩ => ⟨S64x512x1, .f32⟩
  | .hbm, ⟨29, _⟩ => ⟨S_, .f32⟩
  | .hbm, ⟨30, _⟩ => ⟨S64x512x1, .f32⟩
  | .hbm, ⟨31, _⟩ => ⟨S64x512x1, .f32⟩
  | .hbm, ⟨32, _⟩ => ⟨S64x512, .f32⟩
  | .hbm, ⟨33, _⟩ => ⟨S64x512, .f32⟩
  | .hbm, ⟨34, _⟩ => ⟨S512, .i32⟩
  | .hbm, ⟨35, _⟩ => ⟨S1x512, .i32⟩
  | .hbm, ⟨36, _⟩ => ⟨S64x1, .i32⟩
  | .hbm, ⟨37, _⟩ => ⟨S64x512, .i32⟩
  | .hbm, ⟨38, _⟩ => ⟨S64x512, .i32⟩
  | .hbm, ⟨39, _⟩ => ⟨S64x512, .i1⟩
  | .hbm, ⟨40, _⟩ => ⟨S64x512, .f32⟩
  | .hbm, ⟨41, _⟩ => ⟨S64x512, .f32⟩
  | .hbm, ⟨42, _⟩ => ⟨S_, .f32⟩
  | .hbm, ⟨43, _⟩ => ⟨S_, .f32⟩
  | .hbm, ⟨44, _⟩ => ⟨S64x512, .f32⟩
  | .hbm, ⟨45, _⟩ => ⟨S64x512, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S64x512, .f32⟩
  | .hbm, ⟨51, _⟩ => ⟨S64x512, .f32⟩
  | .hbm, ⟨52, _⟩ => ⟨S_, .f32⟩
  | .hbm, ⟨53, _⟩ => ⟨S64, .f32⟩
  | .hbm, ⟨54, _⟩ => ⟨S_, .f32⟩
  | .hbm, ⟨55, _⟩ => ⟨S64, .f32⟩
  | .hbm, ⟨56, _⟩ => ⟨S64, .f32⟩
  | .hbm, ⟨57, _⟩ => ⟨S64x1, .f32⟩
  | .hbm, ⟨58, _⟩ => ⟨S64x512, .f32⟩
  | .hbm, ⟨59, _⟩ => ⟨S64x512, .f32⟩
  | .hbm, ⟨60, _⟩ => ⟨S64x512, .f32⟩
  | .hbm, ⟨61, _⟩ => ⟨S_, .f32⟩
  | .hbm, ⟨62, _⟩ => ⟨S64, .f32⟩
  | .hbm, ⟨63, _⟩ => ⟨S64x1, .f32⟩
  | .hbm, ⟨64, _⟩ => ⟨S64x512, .f32⟩
  | .hbm, ⟨65, _⟩ => ⟨S64x512, .f32⟩
  | .hbm, ⟨66, _⟩ => ⟨S64x512, .f32⟩
  | .hbm, ⟨67, _⟩ => ⟨S64x512, .f32⟩
  | .hbm, ⟨68, _⟩ => ⟨S64x512, .f32⟩
  | .hbm, ⟨69, _⟩ => ⟨S_, .f32⟩
  | .hbm, ⟨70, _⟩ => ⟨S_, .f32⟩
  | .hbm, ⟨71, _⟩ => ⟨S_, .f32⟩
  | .local _ .vmem, ⟨0, _⟩ => ⟨S8x256, .f32⟩
  | .local _ .vmem, ⟨1, _⟩ => ⟨S8x256, .f32⟩
  | .local _ .vmem, ⟨2, _⟩ => ⟨S8x512x256, .f32⟩
  | .local _ .vmem, ⟨3, _⟩ => ⟨S8x512x256, .f32⟩
  | .local _ .vmem, ⟨4, _⟩ => ⟨S8x512, .f32⟩
  | .local _ .vmem, ⟨5, _⟩ => ⟨S8x512, .f32⟩
  | .local _ .vmem, ⟨6, _⟩ => ⟨S8x256x1000, .f32⟩
  | .local _ .vmem, ⟨7, _⟩ => ⟨S8x256x1000, .f32⟩
  | .local _ .vmem, ⟨8, _⟩ => ⟨S8x256, .f32⟩
  | .local _ .vmem, ⟨9, _⟩ => ⟨S8x256, .f32⟩
  | _, _ => ⟨S64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_cst : Ref sig .tc := ⟨.hbm, 29, rfl⟩
abbrev main_call0_v14 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_cst : Ref sig .tc := ⟨.hbm, 42, rfl⟩
abbrev main_call1_v0 : Ref sig .tc := ⟨.hbm, 43, rfl⟩
abbrev main_call1_v1 : Ref sig .tc := ⟨.hbm, 44, rfl⟩
abbrev main_v15 : Ref sig .tc := ⟨.hbm, 45, rfl⟩
abbrev main_cst_0 : Ref sig .tc := ⟨.hbm, 46, rfl⟩
abbrev main_v16 : Ref sig .tc := ⟨.hbm, 47, rfl⟩
abbrev main_cst_1 : Ref sig .tc := ⟨.hbm, 48, rfl⟩
abbrev main_call2_v0 : Ref sig .tc := ⟨.hbm, 49, rfl⟩
abbrev main_call2_v1 : Ref sig .tc := ⟨.hbm, 50, rfl⟩
abbrev main_v17 : Ref sig .tc := ⟨.hbm, 51, rfl⟩
abbrev main_cst_2 : Ref sig .tc := ⟨.hbm, 52, rfl⟩
abbrev main_v18 : Ref sig .tc := ⟨.hbm, 53, rfl⟩
abbrev main_cst_3 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_cst_4 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst_5 : Ref sig .tc := ⟨.hbm, 69, rfl⟩
abbrev main_v32 : Ref sig .tc := ⟨.hbm, 70, rfl⟩
abbrev main_v33 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S8x256x1000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

class Facts₀ : Prop where
  inb_S8x256_S8x256_0_0 : ∀ a, (![0, 0] : Fin 2 → Nat) a + S8x256.size a ≤ S8x256.size a
  h_S8x256 : 0 < S8x256.numel
  shapeCasts_S8x256_S8x1x256 : S8x256.ShapeCasts S8x1x256
  inb_S8x512x256_S8x512x256_0_0_0 : ∀ a, (![0, 0, 0] : Fin 3 → Nat) a + S8x512x256.size a ≤ S8x512x256.size a
  h_S8x512x256 : 0 < S8x512x256.numel
  broadcasts_S8x1x256_S8x512x256 : S8x1x256.Broadcasts S8x512x256
  reduces_S8x512x256_S8x512 : S8x512x256.Reduces [2] S8x512
  inb_S8x512_S8x512_0_0 : ∀ a, (![0, 0] : Fin 2 → Nat) a + S8x512.size a ≤ S8x512.size a
  h_S8x512 : 0 < S8x512.numel
  inb_S8x256x1000_S8x256x1000_0_0_0 : ∀ a, (![0, 0, 0] : Fin 3 → Nat) a + S8x256x1000.size a ≤ S8x256x1000.size a
  h_S8x256x1000 : 0 < S8x256x1000.numel
  reduces_S8x256x1000_S8x256 : S8x256x1000.Reduces [2] S8x256
  shapeCasts_S8x256_S8x256x1 : S8x256.ShapeCasts S8x256x1
  broadcasts_S8x256x1_S8x256x1000 : S8x256x1.Broadcasts S8x256x1000
  shapeCasts_S8x256x1_S8x256 : S8x256x1.ShapeCasts S8x256
  bcast_S64_S64x1x1_0 : S64.BroadcastsInDim S64x1x1 (![0] : Fin 1 → Fin S64x1x1.rank)
  bcast_S64x1x1_S64x512x1_0_1_2 : S64x1x1.BroadcastsInDim S64x512x1 (![0, 1, 2] : Fin 3 → Fin S64x512x1.rank)
  bcast_S_S64x512x1 : S_.BroadcastsInDim S64x512x1 (![] : Fin 0 → Fin S64x512x1.rank)
  shapeCasts_S64x512x1_S64x512x1x1 : S64x512x1.ShapeCasts S64x512x1x1
  bcast_S_S64x512x1x1 : S_.BroadcastsInDim S64x512x1x1 (![] : Fin 0 → Fin S64x512x1x1.rank)
  bcast_S1_S1x1x1x1_3 : S1.BroadcastsInDim S1x1x1x1 (![3] : Fin 1 → Fin S1x1x1x1.rank)
  bcast_S1x1x1x1_S64x512x1x1_0_1_2_3 : S1x1x1x1.BroadcastsInDim S64x512x1x1 (![0, 1, 2, 3] : Fin 4 → Fin S64x512x1x1.rank)
  reducesTo_S64x512x1x1_S64x512x1_d3 : S64x512x1x1.ReducesTo [3] S64x512x1
  h_S_ : 0 < S_.numel
  shapeCasts_S64x512x1_S64x512 : S64x512x1.ShapeCasts S64x512
  bcast_S512_S1x512_1 : S512.BroadcastsInDim S1x512 (![1] : Fin 1 → Fin S1x512.rank)
  bcast_S64_S64x1_0 : S64.BroadcastsInDim S64x1 (![0] : Fin 1 → Fin S64x1.rank)
  bcast_S1x512_S64x512_0_1 : S1x512.BroadcastsInDim S64x512 (![0, 1] : Fin 2 → Fin S64x512.rank)
  bcast_S64x1_S64x512_0_1 : S64x1.BroadcastsInDim S64x512 (![0, 1] : Fin 2 → Fin S64x512.rank)
  bcast_S_S64x512 : S_.BroadcastsInDim S64x512 (![] : Fin 0 → Fin S64x512.rank)
  reducesTo_S64x512_S_d0_1 : S64x512.ReducesTo [0, 1] S_
  reducesTo_S64x512_S64_d1 : S64x512.ReducesTo [1] S64
  bcast_S_S64 : S_.BroadcastsInDim S64 (![] : Fin 0 → Fin S64.rank)
  gather_S64x512x1000_S64x512x1x1_S64x512x1_n_2_01_01_2_3_111_wf : GatherDims.WF S64x512x1000 S64x512x1x1 S64x512x1 [] [2] [0, 1] [2] [0, 1] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256.size a ≤ S64x256.size a
  hwx0_0 : ∀ i : grid0.Coords, EltTy.bits .f32 = 32 ∨ (Rect.block (s := S64x256) S8x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x256.size a ≤ S64x512x256.size a
  hwx0_1 : ∀ i : grid0.Coords, EltTy.bits .f32 = 32 ∨ (Rect.block (s := S64x512x256) S8x512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S64x512.size a
  hwx0_2 : ∀ i : grid0.Coords, EltTy.bits .f32 = 32 ∨ (Rect.block (s := S64x512) S8x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x1000.size a ≤ S64x512x1000.size a
  hwx1_0 : ∀ i : grid1.Coords, EltTy.bits .f32 = 32 ∨ (Rect.block (s := S64x512x1000) S8x256x1000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256.size a ≤ S64x512.size a
  hwx1_1 : ∀ i : grid1.Coords, EltTy.bits .f32 = 32 ∨ (Rect.block (s := S64x512) S8x256.size (cc1_transform_1 i) (hinb1_1 i)).WholeWords (EltTy.packing .f32)

variable [Facts₀]

def gather_S64x512x1000_S64x512x1x1_S64x512x1_n_2_01_01_2_3_111 : GatherDims S64x512x1000 S64x512x1x1 S64x512x1 where
  offsetDims := []
  collapsedSliceDims := [2]
  operandBatchingDims := [0, 1]
  startIndicesBatchingDims := [0, 1]
  startIndexMap := [2]
  indexVectorDim := 3
  sliceSizes := ![1, 1, 1]
  wf := gather_S64x512x1000_S64x512x1x1_S64x512x1_n_2_01_01_2_3_111_wf

abbrev win0_0 : Pipeline.Window sig grid0 :=
  Pipeline.Window.ofSpec (Memref.whole main_arg0) S8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg3) S8x256x1000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8x256.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S64x256 : Shape := ⟨2, ![64, 256]⟩
abbrev S64x512x256 : Shape := ⟨3, ![64, 512, 256]⟩
abbrev S64x512 : Shape := ⟨2, ![64, 512]⟩
abbrev S64x512x1000 : Shape := ⟨3, ![64, 512, 1000]⟩
abbrev S64 : Shape := ⟨1, ![64]⟩
abbrev S512 : Shape := ⟨1, ![512]⟩
abbrev S1x512 : Shape := ⟨2, ![1, 512]⟩
abbrev S64x1 : Shape := ⟨2, ![64, 1]⟩
abbrev S64x1x256 : Shape := ⟨3, ![64, 1, 256]⟩
abbrev S_ : Shape := ⟨0, ![]⟩
abbrev S64x512x1 : Shape := ⟨3, ![64, 512, 1]⟩
abbrev S64x1x1 : Shape := ⟨3, ![64, 1, 1]⟩
abbrev S64x512x1x1 : Shape := ⟨4, ![64, 512, 1, 1]⟩
abbrev S1 : Shape := ⟨1, ![1]⟩
abbrev S1x1x1x1 : Shape := ⟨4, ![1, 1, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S64x256, .f32⟩
  | .hbm, ⟨1, _⟩ => ⟨S64x512x256, .f32⟩
  | .hbm, ⟨2, _⟩ => ⟨S64x512, .f32⟩
  | .hbm, ⟨3, _⟩ => ⟨S64x512x1000, .f32⟩
  | .hbm, ⟨4, _⟩ => ⟨S64, .i32⟩
  | .hbm, ⟨5, _⟩ => ⟨S64, .i32⟩
  | .hbm, ⟨6, _⟩ => ⟨S512, .i32⟩
  | .hbm, ⟨7, _⟩ => ⟨S1x512, .i32⟩
  | .hbm, ⟨8, _⟩ => ⟨S64x1, .i32⟩
  | .hbm, ⟨9, _⟩ => ⟨S64x512, .i32⟩
  | .hbm, ⟨10, _⟩ => ⟨S64x512, .i32⟩
  | .hbm, ⟨11, _⟩ => ⟨S64x512, .i1⟩
  | .hbm, ⟨12, _⟩ => ⟨S64x1x256, .f32⟩
  | .hbm, ⟨13, _⟩ => ⟨S64x512x256, .f32⟩
  | .hbm, ⟨14, _⟩ => ⟨S64x512x256, .f32⟩
  | .hbm, ⟨15, _⟩ => ⟨S64x512x256, .f32⟩
  | .hbm, ⟨16, _⟩ => ⟨S_, .f32⟩
  | .hbm, ⟨17, _⟩ => ⟨S64x512, .f32⟩
  | .hbm, ⟨18, _⟩ => ⟨S64x512, .f32⟩
  | .hbm, ⟨19, _⟩ => ⟨S64x512, .f32⟩
  | .hbm, ⟨20, _⟩ => ⟨S64x512, .f32⟩
  | .hbm, ⟨21, _⟩ => ⟨S_, .f32⟩
  | .hbm, ⟨22, _⟩ => ⟨S_, .f32⟩
  | .hbm, ⟨23, _⟩ => ⟨S64x512, .f32⟩
  | .hbm, ⟨24, _⟩ => ⟨S64x512, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S64x512, .f32⟩
  | .hbm, ⟨30, _⟩ => ⟨S64x512, .f32⟩
  | .hbm, ⟨31, _⟩ => ⟨S_, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S64x1, .f32⟩
  | .hbm, ⟨37, _⟩ => ⟨S64x512, .f32⟩
  | .hbm, ⟨38, _⟩ => ⟨S64x512, .f32⟩
  | .hbm, ⟨39, _⟩ => ⟨S64x512, .f32⟩
  | .hbm, ⟨40, _⟩ => ⟨S_, .f32⟩
  | .hbm, ⟨41, _⟩ => ⟨S64, .f32⟩
  | .hbm, ⟨42, _⟩ => ⟨S64x1, .f32⟩
  | .hbm, ⟨43, _⟩ => ⟨S64x512, .f32⟩
  | .hbm, ⟨44, _⟩ => ⟨S64x512, .f32⟩
  | .hbm, ⟨45, _⟩ => ⟨S64x512, .f32⟩
  | .hbm, ⟨46, _⟩ => ⟨S64x512, .f32⟩
  | .hbm, ⟨47, _⟩ => ⟨S_, .f32⟩
  | .hbm, ⟨48, _⟩ => ⟨S64x512, .f32⟩
  | .hbm, ⟨49, _⟩ => ⟨S_, .f32⟩
  | .hbm, ⟨50, _⟩ => ⟨S64x512, .f32⟩
  | .hbm, ⟨51, _⟩ => ⟨S64x512, .f32⟩
  | .hbm, ⟨52, _⟩ => ⟨S64x512x1, .f32⟩
  | .hbm, ⟨53, _⟩ => ⟨S64x512x1000, .f32⟩
  | .hbm, ⟨54, _⟩ => ⟨S64x512x1000, .f32⟩
  | .hbm, ⟨55, _⟩ => ⟨S64x512x1000, .f32⟩
  | .hbm, ⟨56, _⟩ => ⟨S_, .f32⟩
  | .hbm, ⟨57, _⟩ => ⟨S64x512, .f32⟩
  | .hbm, ⟨58, _⟩ => ⟨S64x512x1, .f32⟩
  | .hbm, ⟨59, _⟩ => ⟨S64x512x1, .f32⟩
  | .hbm, ⟨60, _⟩ => ⟨S64x512x1000, .f32⟩
  | .hbm, ⟨61, _⟩ => ⟨S64x512x1000, .f32⟩
  | .hbm, ⟨62, _⟩ => ⟨S64x1x1, .i32⟩
  | .hbm, ⟨63, _⟩ => ⟨S64x512x1, .i32⟩
  | .hbm, ⟨64, _⟩ => ⟨S_, .i32⟩
  | .hbm, ⟨65, _⟩ => ⟨S64x512x1, .i32⟩
  | .hbm, ⟨66, _⟩ => ⟨S64x512x1, .i1⟩
  | .hbm, ⟨67, _⟩ => ⟨S_, .i32⟩
  | .hbm, ⟨68, _⟩ => ⟨S64x512x1, .i32⟩
  | .hbm, ⟨69, _⟩ => ⟨S64x512x1, .i32⟩
  | .hbm, ⟨70, _⟩ => ⟨S64x512x1, .i32⟩
  | .hbm, ⟨71, _⟩ => ⟨S64x512x1x1, .i32⟩
  | .hbm, ⟨72, _⟩ => ⟨S1, .i32⟩
  | .hbm, ⟨73, _⟩ => ⟨S_, .i32⟩
  | .hbm, ⟨74, _⟩ => ⟨S64x512x1x1, .i32⟩
  | .hbm, ⟨75, _⟩ => ⟨S64x512x1x1, .i1⟩
  | .hbm, ⟨76, _⟩ => ⟨S1x1x1x1, .i32⟩
  | .hbm, ⟨77, _⟩ => ⟨S64x512x1x1, .i32⟩
  | .hbm, ⟨78, _⟩ => ⟨S64x512x1x1, .i1⟩
  | .hbm, ⟨79, _⟩ => ⟨S64x512x1x1, .i1⟩
  | .hbm, ⟨80, _⟩ => ⟨S_, .i1⟩
  | .hbm, ⟨81, _⟩ => ⟨S64x512x1, .i1⟩
  | .hbm, ⟨82, _⟩ => ⟨S64x512x1, .f32⟩
  | .hbm, ⟨83, _⟩ => ⟨S_, .f32⟩
  | .hbm, ⟨84, _⟩ => ⟨S64x512x1, .f32⟩
  | .hbm, ⟨85, _⟩ => ⟨S64x512x1, .f32⟩
  | .hbm, ⟨86, _⟩ => ⟨S64x512, .f32⟩
  | .hbm, ⟨87, _⟩ => ⟨S64x512, .f32⟩
  | .hbm, ⟨88, _⟩ => ⟨S64x512, .f32⟩
  | .hbm, ⟨89, _⟩ => ⟨S_, .f32⟩
  | .hbm, ⟨90, _⟩ => ⟨S_, .f32⟩
  | .hbm, ⟨91, _⟩ => ⟨S_, .f32⟩
  | _, _ => ⟨S64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_cst_2 : Ref sig .tc := ⟨.hbm, 27, rfl⟩
abbrev main_call1_v0 : Ref sig .tc := ⟨.hbm, 28, rfl⟩
abbrev main_call1_v1 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call2_cst : Ref sig .tc := ⟨.hbm, 47, rfl⟩
abbrev main_call2_v0 : Ref sig .tc := ⟨.hbm, 48, rfl⟩
abbrev main_call2_cst_0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_v6 : Ref sig .tc := ⟨.hbm, 55, rfl⟩
abbrev main_call2_cst_1 : Ref sig .tc := ⟨.hbm, 56, rfl⟩
abbrev main_call2_v7 : Ref sig .tc := ⟨.hbm, 57, rfl⟩
abbrev main_call2_v8 : Ref sig .tc := ⟨.hbm, 58, rfl⟩
abbrev main_call2_v9 : Ref sig .tc := ⟨.hbm, 59, rfl⟩
abbrev main_call2_v10 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_call3_c : Ref sig .tc := ⟨.hbm, 64, rfl⟩
abbrev main_call3_v0 : Ref sig .tc := ⟨.hbm, 65, rfl⟩
abbrev main_call3_v1 : Ref sig .tc := ⟨.hbm, 66, rfl⟩
abbrev main_call3_c_0 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_v5 : Ref sig .tc := ⟨.hbm, 71, rfl⟩
abbrev main_call3_c_1 : Ref sig .tc := ⟨.hbm, 72, rfl⟩
abbrev main_call3_c_2 : Ref sig .tc := ⟨.hbm, 73, rfl⟩
abbrev main_call3_v6 : Ref sig .tc := ⟨.hbm, 74, rfl⟩
abbrev main_call3_v7 : Ref sig .tc := ⟨.hbm, 75, rfl⟩
abbrev main_call3_v8 : Ref sig .tc := ⟨.hbm, 76, rfl⟩
abbrev main_call3_v9 : Ref sig .tc := ⟨.hbm, 77, rfl⟩
abbrev main_call3_v10 : Ref sig .tc := ⟨.hbm, 78, rfl⟩
abbrev main_call3_v11 : Ref sig .tc := ⟨.hbm, 79, rfl⟩
abbrev main_call3_c_3 : Ref sig .tc := ⟨.hbm, 80, rfl⟩
abbrev main_call3_v12 : Ref sig .tc := ⟨.hbm, 81, rfl⟩
abbrev main_call3_v13 : Ref sig .tc := ⟨.hbm, 82, rfl⟩
abbrev main_call3_cst : Ref sig .tc := ⟨.hbm, 83, rfl⟩
abbrev main_call3_v14 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_cst_6 : Ref sig .tc := ⟨.hbm, 89, rfl⟩
abbrev main_v37 : Ref sig .tc := ⟨.hbm, 90, rfl⟩
abbrev main_v38 : Ref sig .tc := ⟨.hbm, 91, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S64_S64x1_0 : S64.BroadcastsInDim S64x1 (![0] : Fin 1 → Fin S64x1.rank)
  bcast_S1x512_S64x512_0_1 : S1x512.BroadcastsInDim S64x512 (![0, 1] : Fin 2 → Fin S64x512.rank)
  bcast_S64x1_S64x512_0_1 : S64x1.BroadcastsInDim S64x512 (![0, 1] : Fin 2 → Fin S64x512.rank)
  bcast_S64x256_S64x1x256_0_2 : S64x256.BroadcastsInDim S64x1x256 (![0, 2] : Fin 2 → Fin S64x1x256.rank)
  bcast_S64x1x256_S64x512x256_0_1_2 : S64x1x256.BroadcastsInDim S64x512x256 (![0, 1, 2] : Fin 3 → Fin S64x512x256.rank)
  reducesTo_S64x512x256_S64x512_d2 : S64x512x256.ReducesTo [2] S64x512
  h_S_ : 0 < S_.numel
  bcast_S_S64x512 : S_.BroadcastsInDim S64x512 (![] : Fin 0 → Fin S64x512.rank)
  reducesTo_S64x512_S_d0_1 : S64x512.ReducesTo [0, 1] S_
  reducesTo_S64x512_S64_d1 : S64x512.ReducesTo [1] S64
  bcast_S_S64 : S_.BroadcastsInDim S64 (![] : Fin 0 → Fin S64.rank)
  reducesTo_S64x512x1000_S64x512_d2 : S64x512x1000.ReducesTo [2] S64x512
  bcast_S64x512_S64x512x1_0_1 : S64x512.BroadcastsInDim S64x512x1 (![0, 1] : Fin 2 → Fin S64x512x1.rank)
  bcast_S64x512x1_S64x512x1000_0_1_2 : S64x512x1.BroadcastsInDim S64x512x1000 (![0, 1, 2] : Fin 3 → Fin S64x512x1000.rank)
  bcast_S64_S64x1x1_0 : S64.BroadcastsInDim S64x1x1 (![0] : Fin 1 → Fin S64x1x1.rank)
  bcast_S64x1x1_S64x512x1_0_1_2 : S64x1x1.BroadcastsInDim S64x512x1 (![0, 1, 2] : Fin 3 → Fin S64x512x1.rank)
  bcast_S_S64x512x1 : S_.BroadcastsInDim S64x512x1 (![] : Fin 0 → Fin S64x512x1.rank)
  shapeCasts_S64x512x1_S64x512x1x1 : S64x512x1.ShapeCasts S64x512x1x1
  bcast_S_S64x512x1x1 : S_.BroadcastsInDim S64x512x1x1 (![] : Fin 0 → Fin S64x512x1x1.rank)
  bcast_S1_S1x1x1x1_3 : S1.BroadcastsInDim S1x1x1x1 (![3] : Fin 1 → Fin S1x1x1x1.rank)
  bcast_S1x1x1x1_S64x512x1x1_0_1_2_3 : S1x1x1x1.BroadcastsInDim S64x512x1x1 (![0, 1, 2, 3] : Fin 4 → Fin S64x512x1x1.rank)
  reducesTo_S64x512x1x1_S64x512x1_d3 : S64x512x1x1.ReducesTo [3] S64x512x1
  shapeCasts_S64x512x1_S64x512 : S64x512x1.ShapeCasts S64x512
  gather_S64x512x1000_S64x512x1x1_S64x512x1_n_2_01_01_2_3_111_wf : GatherDims.WF S64x512x1000 S64x512x1x1 S64x512x1 [] [2] [0, 1] [2] [0, 1] 3 ![1, 1, 1]

variable [Facts₀]

def gather_S64x512x1000_S64x512x1x1_S64x512x1_n_2_01_01_2_3_111 : GatherDims S64x512x1000 S64x512x1x1 S64x512x1 where
  offsetDims := []
  collapsedSliceDims := [2]
  operandBatchingDims := [0, 1]
  startIndicesBatchingDims := [0, 1]
  startIndexMap := [2]
  indexVectorDim := 3
  sliceSizes := ![1, 1, 1]
  wf := gather_S64x512x1000_S64x512x1x1_S64x512x1_n_2_01_01_2_3_111_wf

class Facts : Prop extends Facts₀ where

variable [Facts]
-- ==== Proof.Spec.lean ====
/-
  The functions both programs compute, written once over the reference's shapes.

  With d[b,k] = sqrt (∑_j (f[b,j] - n[b,k,j])²) and a per-neighbour cross-entropy ce[b,k], both programs return
    ∑_{b,k} [k < len b] (-w·d)[b,k]  +  ∑_{b,k} softmax_k(masked (-w·d))[b,k] · [k < len b] · ce[b,k].
  `Tail` is that closing expression as a function of d, ce, w and len. The kernel takes
  ce = lse - x[target] (`ceK`), the reference ce = -(log_softmax x)[target] (`ceR`); the entry picked along the class
  axis (`picked`) is the same on both sides: the target wrapped once when negative, the entry replaced by the fill
  value when the wrapped target is outside [0, 999].
-/
import proofs.«420340_j30004641530405_3_alg».proof.Proof.Gen.ReferenceIdeal
import Idealize.ShloMosaic.PureOps.Ideal

noncomputable section

namespace Cert.Spec

open Cert.ReferenceIdeal Cert.ReferenceIdeal.Gen Idealize.ShloMosaic

variable {F : FTy → Type} [FloatOps F]

/-- The target of each sample, laid out per neighbour: t[b,k,0] = target b. -/
def tgt (x4 : IVec S64 32) : IVec S64x512x1 32 :=
  broadcastInDim S64x512x1 ![0, 1, 2] bcast_S64x1x1_S64x512x1_0_1_2 (broadcastInDim S64x1x1 ![0] bcast_S64_S64x1x1_0 x4)

/-- The class index read: the target, plus 1000 when it is negative. -/
def clsIdx (x4 : IVec S64 32) : IVec S64x512x1x1 32 :=
  shapeCast _ (select (cmpi .slt (tgt x4) (broadcastInDim S64x512x1 ![] bcast_S_S64x512x1 (constantI S_ 32 0#32))) (addi (tgt x4) (broadcastInDim S64x512x1 ![] bcast_S_S64x512x1 (constantI S_ 32 1000#32))) (tgt x4)) shapeCasts_S64x512x1_S64x512x1x1

/-- Whether the class index lies in [0, 999]. -/
def clsOk (x4 : IVec S64 32) : IVec S64x512x1 1 :=
  Host.reduce IntOp.andi (andi (cmpi .sge (clsIdx x4) (broadcastInDim S64x512x1x1 ![] bcast_S_S64x512x1x1 (constantI S_ 32 0#32))) (cmpi .sle (clsIdx x4) (broadcastInDim S64x512x1x1 ![0, 1, 2, 3] bcast_S1x1x1x1_S64x512x1x1_0_1_2_3 (broadcastInDim S1x1x1x1 ![3] bcast_S1_S1x1x1x1_3 (constantI S1 32 999#32))))) (constantI S_ 1 1#1) reducesTo_S64x512x1x1_S64x512x1_d3 h_S_

/-- y[b,k,class index], or the fill value where the class index is out of range. -/
def picked (y : FVec F S64x512x1000 .f32) (x4 : IVec S64 32) : FVec F S64x512 .f32 :=
  shapeCast _ (select (clsOk x4) (Host.gather gather_S64x512x1000_S64x512x1x1_S64x512x1_n_2_01_01_2_3_111 y (clsIdx x4)) (broadcastInDim S64x512x1 ![] bcast_S_S64x512x1 (constant S_ .f32 0x7FC00000#32))) shapeCasts_S64x512x1_S64x512

/-- The row maximum over the classes: M[b,k] = max_c x[b,k,c]. -/
def rowMax (x3 : FVec F S64x512x1000 .f32) : FVec F S64x512 .f32 :=
  maximumf (broadcastInDim S64x512 ![] bcast_S_S64x512 (constant S_ .f32 0xFF800000#32)) (Host.reduce FloatOps.maximumf x3 (constant S_ .f32 0xFF800000#32) reducesTo_S64x512x1000_S64x512_d2 h_S_)

/-- x[b,k,c] - M[b,k]. -/
def shifted (x3 : FVec F S64x512x1000 .f32) : FVec F S64x512x1000 .f32 :=
  subf x3 (broadcastInDim S64x512x1000 ![0, 1, 2] bcast_S64x512x1_S64x512x1000_0_1_2 (broadcastInDim S64x512x1 ![0, 1] bcast_S64x512_S64x512x1_0_1 (rowMax x3)))

/-- S[b,k] = ∑_c exp (x[b,k,c] - M[b,k]). -/
def rowSum (x3 : FVec F S64x512x1000 .f32) : FVec F S64x512 .f32 :=
  Host.reduceAdd (Host.exp (shifted x3)) (constant S_ .f32 0x00000000#32) reducesTo_S64x512x1000_S64x512_d2 h_S_

/-- log_softmax over the classes: (x - M) - log S. -/
def logSoftmax (x3 : FVec F S64x512x1000 .f32) : FVec F S64x512x1000 .f32 :=
  subf (shifted x3) (broadcastInDim S64x512x1000 ![0, 1, 2] bcast_S64x512x1_S64x512x1000_0_1_2 (Host.log (broadcastInDim S64x512x1 ![0, 1] bcast_S64x512_S64x512x1_0_1 (rowSum x3))))

/-- logsumexp over the classes: M + log S. -/
def lse (x3 : FVec F S64x512x1000 .f32) : FVec F S64x512 .f32 :=
  addf (rowMax x3) (Host.log (rowSum x3))

/-- The reference's cross-entropy: -(log_softmax x)[target]. -/
def ceR (x3 : FVec F S64x512x1000 .f32) (x4 : IVec S64 32) : FVec F S64x512 .f32 :=
  Host.negf (picked (logSoftmax x3) x4)

/-- The kernel's cross-entropy from a logsumexp array l: l - x[target]. -/
def ceK (l : FVec F S64x512 .f32) (x3 : FVec F S64x512x1000 .f32) (x4 : IVec S64 32) : FVec F S64x512 .f32 :=
  subf l (picked x3 x4)

/-- The distance of each sample's feature to each of its neighbours: sqrt (∑_j (f[b,j] - n[b,k,j])²). -/
def dist (x0 : FVec F S64x256 .f32) (x1 : FVec F S64x512x256 .f32) : FVec F S64x512 .f32 :=
  Host.sqrt (Host.reduceAdd (mulf (subf (broadcastInDim S64x512x256 ![0, 1, 2] bcast_S64x1x256_S64x512x256_0_1_2 (broadcastInDim S64x1x256 ![0, 2] bcast_S64x256_S64x1x256_0_2 x0)) x1) (subf (broadcastInDim S64x512x256 ![0, 1, 2] bcast_S64x1x256_S64x512x256_0_1_2 (broadcastInDim S64x1x256 ![0, 2] bcast_S64x256_S64x1x256_0_2 x0)) x1)) (constant S_ .f32 0x00000000#32) reducesTo_S64x512x256_S64x512_d2 h_S_)

/-- valid[b,k] = [k < len b]. -/
def valid (x5 : IVec S64 32) : IVec S64x512 1 :=
  cmpi .slt (broadcastInDim S64x512 ![0, 1] bcast_S1x512_S64x512_0_1 (broadcastInDim S1x512 ![1] bcast_S512_S1x512_1 (iotaInDim S512 32 0))) (broadcastInDim S64x512 ![0, 1] bcast_S64x1_S64x512_0_1 (broadcastInDim S64x1 ![0] bcast_S64_S64x1_0 x5))

/-- The masked scores: -w·d on the valid neighbours, the constant c elsewhere. -/
def masked (d w : FVec F S64x512 .f32) (x5 : IVec S64 32) (c : BitVec 32) : FVec F S64x512 .f32 :=
  select (valid x5) (mulf (Host.negf w) d) (broadcastInDim S64x512 ![] bcast_S_S64x512 (id (constant S_ .f32 c)))

/-- The row maximum of the masked scores, laid out per neighbour. -/
def scoreMax (d w : FVec F S64x512 .f32) (x5 : IVec S64 32) : FVec F S64x512 .f32 :=
  broadcastInDim S64x512 ![0, 1] bcast_S64x1_S64x512_0_1 (broadcastInDim S64x1 ![0] bcast_S64_S64x1_0 (maximumf (broadcastInDim S64 ![] bcast_S_S64 (constant S_ .f32 0xFF800000#32)) (Host.reduce FloatOps.maximumf (masked d w x5 0xF149F2CA#32) (constant S_ .f32 0xFF800000#32) reducesTo_S64x512_S64_d1 h_S_)))

/-- exp (score - row maximum). -/
def scoreExp (d w : FVec F S64x512 .f32) (x5 : IVec S64 32) : FVec F S64x512 .f32 :=
  Host.exp (subf (masked d w x5 0xF149F2CA#32) (scoreMax d w x5))

/-- The weights: softmax of the masked scores along the neighbours, times the validity mask. -/
def rho (d w : FVec F S64x512 .f32) (x5 : IVec S64 32) : FVec F S64x512 .f32 :=
  mulf (Host.divf (scoreExp d w x5) (broadcastInDim S64x512 ![0, 1] bcast_S64x1_S64x512_0_1 (broadcastInDim S64x1 ![0] bcast_S64_S64x1_0 (Host.reduceAdd (scoreExp d w x5) (constant S_ .f32 0x00000000#32) reducesTo_S64x512_S64_d1 h_S_)))) (uitofp .f32 (valid x5))

/-- The closing expression of both programs: the sum of the valid scores plus the weighted sum of the cross-entropies. -/
def Tail (d ce w : FVec F S64x512 .f32) (x5 : IVec S64 32) : FVec F S_ .f32 :=
  addf (Host.reduceAdd (masked d w x5 0x00000000#32) (constant S_ .f32 0x00000000#32) reducesTo_S64x512_S_d0_1 h_S_) (Host.reduceAdd (mulf (rho d w x5) ce) (constant S_ .f32 0x00000000#32) reducesTo_S64x512_S_d0_1 h_S_)

end Cert.Spec

end
-- ==== Proof.KernelTail.lean ====
/-
  The kernel program's result as a function of what its two pallas_calls leave.

  After the second pallas_call the program runs host operations only: it picks x[b,k,target b], subtracts it from the
  logsumexp array, and closes with the masked sum of -w·d plus the softmax-weighted sum of the cross-entropies. Read off
  the buffer contents V at the second call's exit, the result buffer is `Spec.Tail d (Spec.ceK l x t) w len` with d and l
  the two calls' output arrays. Those arrays are what the pipelines' write-backs leave (`Dat.arrAt … N`), and the argument
  arrays are as launched.
-/
import proofs.«420340_j30004641530405_3_alg».proof.Proof.KernelRun
import proofs.«420340_j30004641530405_3_alg».proof.Proof.Spec
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.SL.Sem Idealize.ShloMosaic.StableHlo
open Idealize.ShloMosaic.Pipeline (Dat)

variable {F : FTy → Type} [FloatOps F]

set_option maxRecDepth 131072 in
set_option maxHeartbeats 4000000 in
/-- The seven stretches of host operations after the second pallas_call, from contents `V`: the result buffer holds the
    closing expression of the two calls' arrays and the arguments. -/
theorem tail_of (V : Valuation τ sig (Elt F)) :
    StableHlo.after hostOps2_6 (StableHlo.after hostOps2_5 (StableHlo.after hostOps2_4 (StableHlo.after hostOps2_3
      (StableHlo.after hostOps2_2 (StableHlo.after hostOps2_1 (StableHlo.after hostOps2 V)))))) (Proc.devRef .tc main_v33)
    = Cert.Spec.Tail (F := F) (V (Proc.devRef .tc main_v0))
        (Cert.Spec.ceK (V (Proc.devRef .tc main_v1)) (V (Proc.devRef .tc main_arg3)) (V (Proc.devRef .tc main_arg4)))
        (V (Proc.devRef .tc main_arg2)) (V (Proc.devRef .tc main_arg5)) := by
  after_results_simp
  rfl

variable (m : (ℓ : Loc nD τ sig) → Buf (Elt F) ℓ) (ρ : Dev nD → PrngReg)

/-- At the second call's exit the first call's output array is what its write-backs leave. -/
theorem W2_v0 (c : Dev nD) : W2 m ρ c (Proc.devRef .tc main_v0) = (dat0 (V0 m ρ) c).arrAt 2 cfg0.N :=
  (W2_of_ne m ρ c main_v0 (by decide)).trans (W1_arr m ρ c 2)
/-- At the second call's exit its output array is what its write-backs leave. -/
theorem W2_v1 (c : Dev nD) : W2 m ρ c (Proc.devRef .tc main_v1) = (dat1 (V1 m ρ) c).arrAt 1 cfg1.N :=
  W2_arr m ρ c 1
theorem W2_arg2 (c : Dev nD) : W2 m ρ c (Proc.devRef .tc main_arg2) = m ((c : Thread nD τ).loc main_arg2) :=
  (W2_of_ne m ρ c main_arg2 (by decide)).trans (W1_of_ne m ρ c main_arg2 (by decide))
theorem W2_arg3 (c : Dev nD) : W2 m ρ c (Proc.devRef .tc main_arg3) = m ((c : Thread nD τ).loc main_arg3) :=
  ((W2_arr m ρ c 0).trans (((dat1 (V1 m ρ) c).arrAt_in 0 rfl _).trans (A_eq1 (V1 m ρ) c 0))).trans (W1_of_ne m ρ c main_arg3 (by decide))
theorem W2_arg4 (c : Dev nD) : W2 m ρ c (Proc.devRef .tc main_arg4) = m ((c : Thread nD τ).loc main_arg4) :=
  (W2_of_ne m ρ c main_arg4 (by decide)).trans (W1_of_ne m ρ c main_arg4 (by decide))
theorem W2_arg5 (c : Dev nD) : W2 m ρ c (Proc.devRef .tc main_arg5) = m ((c : Thread nD τ).loc main_arg5) :=
  (W2_of_ne m ρ c main_arg5 (by decide)).trans (W1_of_ne m ρ c main_arg5 (by decide))

/-- The result buffer at the last boundary: the closing expression of the two calls' arrays and the launch arguments. -/
theorem result_eq (c : Dev nD) :
    W9 m ρ c (Proc.devRef .tc main_v33)
    = Cert.Spec.Tail (F := F) ((dat0 (V0 m ρ) c).arrAt 2 cfg0.N)
        (Cert.Spec.ceK ((dat1 (V1 m ρ) c).arrAt 1 cfg1.N) (m ((c : Thread nD τ).loc main_arg3)) (m ((c : Thread nD τ).loc main_arg4)))
        (m ((c : Thread nD τ).loc main_arg2)) (m ((c : Thread nD τ).loc main_arg5)) := by
  refine (tail_of (F := F) (W2 m ρ c)).trans ?_
  rw [W2_v0 m ρ c, W2_v1 m ρ c, W2_arg2 m ρ c, W2_arg3 m ρ c, W2_arg4 m ρ c, W2_arg5 m ρ c]

/-- Every weakly fair execution of the kernel program terminates with the result at that expression and the arguments unchanged. -/
theorem run : θ_run defs (onTc (τ := τ) (main (F := F))) ⟨m, fun _ => 0, ρ⟩ (fun r => ∀ c : Dev nD,
      r.2.mem ((c.tc : Thread nD τ).loc main_v33)
        = Cert.Spec.Tail (F := F) ((dat0 (V0 m ρ) c).arrAt 2 cfg0.N)
            (Cert.Spec.ceK ((dat1 (V1 m ρ) c).arrAt 1 cfg1.N) (m ((c.tc : Thread nD τ).loc main_arg3)) (m ((c.tc : Thread nD τ).loc main_arg4)))
            (m ((c.tc : Thread nD τ).loc main_arg2)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (run_result m ρ)

end Cert.KernelIdeal.Result

end
-- ==== Proof.RefValue.lean ====
/-
  The reference program's result is the closing expression of its own distance and cross-entropy arrays.

  The reference is host operations only; what its result buffer holds after them, read off any buffer contents V, is
  `Spec.Tail (Spec.dist f n) (Spec.ceR x t) w len` of V at the six arguments — the operations are, one for one, the ones
  Spec.lean's names stand for — and no operation writes an argument.
-/
import proofs.«420340_j30004641530405_3_alg».proof.Proof.RefRun
import proofs.«420340_j30004641530405_3_alg».proof.Proof.Spec

set_option maxRecDepth 16384

noncomputable section

namespace Cert.RefValue

open Cert.ReferenceIdeal Cert.ReferenceIdeal.Gen Cert.ReferenceIdeal.PRun Idealize.ShloMosaic Idealize.ShloMosaic.TcCoe Idealize.SL.Sem
open Idealize.ShloMosaic.StableHlo

variable {F : FTy → Type} [FloatOps F]

set_option maxRecDepth 131072 in
set_option maxHeartbeats 8000000 in
/-- After the reference's operations, from contents `V`, the result buffer holds the closing expression at the reference's
    distance and cross-entropy of `V`'s arguments. -/
theorem tail_of (V : Valuation τ sig (Elt F)) :
    after (ops (F := F)) V (Proc.devRef .tc main_v38)
    = Cert.Spec.Tail (F := F) (Cert.Spec.dist (V (Proc.devRef .tc main_arg0)) (V (Proc.devRef .tc main_arg1)))
        (Cert.Spec.ceR (V (Proc.devRef .tc main_arg3)) (V (Proc.devRef .tc main_arg4)))
        (V (Proc.devRef .tc main_arg2)) (V (Proc.devRef .tc main_arg5)) := by
  simp only [ops, TRef.nullary, TRef.unary, TRef.binary, TRef.ternary, TRef.reshape, TRef.toBuf, TRef.ofBuf, cast_eq]
  after_results_simp
  rfl

set_option maxRecDepth 8192 in
set_option maxHeartbeats 8000000 in
/-- No operation writes an argument. -/
theorem args_of (V : Valuation τ sig (Elt F)) :
    after (ops (F := F)) V (Proc.devRef .tc main_arg0) = V (Proc.devRef .tc main_arg0)
    ∧ after (ops (F := F)) V (Proc.devRef .tc main_arg1) = V (Proc.devRef .tc main_arg1)
    ∧ after (ops (F := F)) V (Proc.devRef .tc main_arg2) = V (Proc.devRef .tc main_arg2)
    ∧ after (ops (F := F)) V (Proc.devRef .tc main_arg3) = V (Proc.devRef .tc main_arg3)
    ∧ after (ops (F := F)) V (Proc.devRef .tc main_arg4) = V (Proc.devRef .tc main_arg4)
    ∧ after (ops (F := F)) V (Proc.devRef .tc main_arg5) = V (Proc.devRef .tc main_arg5) := by
  refine ⟨?_, ?_, ?_, ?_, ?_, ?_⟩ <;> after_results_simp

/-- Every weakly fair execution of the reference terminates with the result at that expression of the launch arguments and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38)
        = Cert.Spec.Tail (F := F)
            (Cert.Spec.dist (m ((c.tc : Thread nD τ).loc main_arg0)) (m ((c.tc : Thread nD τ).loc main_arg1)))
            (Cert.Spec.ceR (m ((c.tc : Thread nD τ).loc main_arg3)) (m ((c.tc : Thread nD τ).loc main_arg4)))
            (m ((c.tc : Thread nD τ).loc main_arg2)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨(h c main_v38).trans (tail_of (launchContents m c)),
     (h c main_arg0).trans (args_of (launchContents m c)).1,
     (h c main_arg1).trans (args_of (launchContents m c)).2.1,
     (h c main_arg2).trans (args_of (launchContents m c)).2.2.1,
     (h c main_arg3).trans (args_of (launchContents m c)).2.2.2.1,
     (h c main_arg4).trans (args_of (launchContents m c)).2.2.2.2.1,
     (h c main_arg5).trans (args_of (launchContents m c)).2.2.2.2.2⟩) (run_fold m ρ)

end Cert.RefValue

end
-- ==== Proof.DistValue.lean ====
/-
  The first pallas_call's output array: d[b,k] = sqrt (∑_j (f[b,j] - n[b,k,j])²), the reference's distance.

  Both sides are compared with one index-level function G f n (b, k) = sqrt (∑_{j < 256} (f[b,j] - n[b,k,j])²).
  The kernel: at grid point t the body reads rows 8t … 8t+7 of f and of n, repeats the feature rows along the 512
  neighbours, squares the differences, sums over the last axis and takes the root, so its [8,512] result at (p, q) is
  G f n (8t + p, q); point t writes that block back as rows 8t … 8t+7 of the output, and the eight blocks cover all 64
  rows, so the array ends as G f n. The reference: its two broadcasts read f[b,j] at (b, k, j) and the host's sum over
  the last axis from the initial value 0 is the same sum over j, so its distance array is G f n as well.
-/
import proofs.«420340_j30004641530405_3_alg».proof.Proof.Gen.KernelIdeal.Frame
import proofs.«420340_j30004641530405_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.DistValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ) (ρ : Dev nD → PrngReg)

/-! ## The distance, index by index -/

/-- The distance of sample b's feature to its k-th neighbour: sqrt (∑_j (f[b,j] - n[b,k,j])²). -/
def distAt (f : Vec Ideal ⟨2, ![64, 256]⟩ .f32) (n : Vec Ideal ⟨3, ![64, 512, 256]⟩ .f32) (b : Fin 64) (k : Fin 512) : EReal :=
  Ideal.sqrt (∑ j : Fin 256, (f (ix2 b j) - n (ix3 b k j)) * (f (ix2 b j) - n (ix3 b k j)))

/-- The distance array, index by index. -/
def G (f : Vec Ideal ⟨2, ![64, 256]⟩ .f32) (n : Vec Ideal ⟨3, ![64, 512, 256]⟩ .f32) : Vec Ideal ⟨2, ![64, 512]⟩ .f32 :=
  fun i => distAt f n (i 0) (i 1)

/-! ## The body's value at an index of its block -/

/-- Summing over the last axis at (p, q) inserts the summation coordinate j as the index (p, q, j). -/
theorem lift_eq (p : Fin 8) (q : Fin 512) (j : Fin 256) :
    reduces_S8x512x256_S8x512.lift (ix2 p q) j = ix3 p q j :=
  funext fun a => Fin.ext (by match a with | ⟨0, _⟩ => rfl | ⟨1, _⟩ => rfl | ⟨2, _⟩ => rfl)

/-- The feature block laid out per neighbour: entry (p, q, j) of the [8,256] block reshaped to [8,1,256] and repeated
    along the neighbours is the block's entry (p, j). -/
theorem spread_apply (x0 : Vec Ideal S8x256 .f32) (p : Fin 8) (q : Fin 512) (j : Fin 256) :
    broadcastTo S8x512x256 (shapeCast S8x1x256 x0 shapeCasts_S8x256_S8x1x256) broadcasts_S8x1x256_S8x512x256 (ix3 p q j)
      = x0 (ix2 p j) := by
  refine (broadcastTo_apply _ broadcasts_S8x1x256_S8x512x256 (ix3 p q j) (ix3 p (0 : Fin 1) j) fun a => ?_).trans ?_
  · match a with
    | ⟨0, _⟩ => show p.val = if (8 : Nat) = 1 then 0 else p.val; rw [if_neg (by decide)]
    | ⟨1, _⟩ => show 0 = if (1 : Nat) = 1 then 0 else q.val; rw [if_pos rfl]
    | ⟨2, _⟩ => show j.val = if (256 : Nat) = 1 then 0 else j.val; rw [if_neg (by decide)]
  · refine shapeCast_apply x0 shapeCasts_S8x256_S8x1x256 (ix3 p (0 : Fin 1) j) (ix2 p j) ?_
    rw [Shape.rowMajor_val_two, Shape.rowMajor_val_three]
    show p.val * 256 + j.val = (p.val * 1 + 0) * 256 + j.val
    omega

/-- The body's result at (p, q) of its [8,512] block: the root of the sum over the 256 features of the squared
    difference of the feature block's row p and the neighbour block's row (p, q). -/
theorem pay_apply (x0 : Vec Ideal S8x256 .f32) (x1 : Vec Ideal S8x512x256 .f32) (p : Fin 8) (q : Fin 512) :
    k0_pay1 (F := Ideal) x0 x1 (ix2 p q)
      = Ideal.sqrt (∑ j : Fin 256, (x0 (ix2 p j) - x1 (ix3 p q j)) * (x0 (ix2 p j) - x1 (ix3 p q j))) := by
  unfold k0_pay1
  refine congrArg Ideal.sqrt ?_
  refine (Ideal.multiReduction_add_single (φ := .f32) _ 0x00000000#32 reduces_S8x512x256_S8x512 (.inl rfl) rfl (ix2 p q)).trans ?_
  refine Finset.sum_congr rfl fun j _ => ?_
  have e := lift_eq p q j
  have s := spread_apply x0 p q j
  rw [← e] at s
  show (broadcastTo S8x512x256 (shapeCast S8x1x256 x0 shapeCasts_S8x256_S8x1x256) broadcasts_S8x1x256_S8x512x256 (reduces_S8x512x256_S8x512.lift (ix2 p q) j) - x1 (reduces_S8x512x256_S8x512.lift (ix2 p q) j))
      * (broadcastTo S8x512x256 (shapeCast S8x1x256 x0 shapeCasts_S8x256_S8x1x256) broadcasts_S8x1x256_S8x512x256 (reduces_S8x512x256_S8x512.lift (ix2 p q) j) - x1 (reduces_S8x512x256_S8x512.lift (ix2 p q) j)) = _
  rw [s, e]

/-! ## From the blocks to the array -/

section Blocks

-- the arrays as the first pallas_call finds them: a parameter here, the launch memory where this is used
variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps, decided over the eight grid points: point t takes block (t, 0) of the features and block (t, 0, 0)
    of the neighbours, and writes block (t, 0) of the distances. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- Row p of point t's feature block is row 8t + p of the feature array. -/
theorem feat_blk (c : Dev nD) (t : Fin cfg0.N) (p : Fin 8) (j : Fin 256) (b : Fin 64) (hb : b.val = t.val * 8 + p.val) :
    (iblk0 V c 0 t : Vec Ideal S8x256 .f32) (ix2 p j) = (V c main_arg0 : Vec Ideal S64x256 .f32) (ix2 b j) := by
  obtain ⟨e0, e1, -⟩ := idx_facts t
  unfold iblk0
  show (V c main_arg0 : Vec Ideal S64x256 .f32) (((cfg0.win 0).blk t).view.emb (ix2 p j)) = _
  refine congrArg (V c main_arg0 : Vec Ideal S64x256 .f32) (funext fun a => Fin.ext ?_)
  match a with
  | ⟨0, _⟩ => show win0_0.index t (0 : Fin 2) * 8 + 1 * p.val = b.val; omega
  | ⟨1, _⟩ => show win0_0.index t (1 : Fin 2) * 256 + 1 * j.val = j.val; omega

/-- Row (p, q) of point t's neighbour block is row (8t + p, q) of the neighbour array. -/
theorem nbr_blk (c : Dev nD) (t : Fin cfg0.N) (p : Fin 8) (q : Fin 512) (j : Fin 256) (b : Fin 64) (hb : b.val = t.val * 8 + p.val) :
    (iblk0 V c 1 t : Vec Ideal S8x512x256 .f32) (ix3 p q j) = (V c main_arg1 : Vec Ideal S64x512x256 .f32) (ix3 b q j) := by
  obtain ⟨-, -, e2, e3, e4, -⟩ := idx_facts t
  unfold iblk0
  show (V c main_arg1 : Vec Ideal S64x512x256 .f32) (((cfg0.win 1).blk t).view.emb (ix3 p q j)) = _
  refine congrArg (V c main_arg1 : Vec Ideal S64x512x256 .f32) (funext fun a => Fin.ext ?_)
  match a with
  | ⟨0, _⟩ => show win0_1.index t (0 : Fin 3) * 8 + 1 * p.val = b.val; omega
  | ⟨1, _⟩ => show win0_1.index t (1 : Fin 3) * 512 + 1 * q.val = q.val; omega
  | ⟨2, _⟩ => show win0_1.index t (2 : Fin 3) * 256 + 1 * j.val = j.val; omega

/-- One entry of one point's result: if the two input blocks are rows 8s … 8s + 7 of arrays f and n, the body's
    result at y is the distance array of f and n at the index 8 s rows further down. -/
theorem point_eq (x0 : Vec Ideal S8x256 .f32) (x1 : Vec Ideal S8x512x256 .f32)
    (f : Vec Ideal S64x256 .f32) (n : Vec Ideal S64x512x256 .f32) (s : Nat) (y : S8x512.Idx) (i : S64x512.Idx)
    (h0 : ∀ (p : Fin 8) (j : Fin 256) (b : Fin 64), b.val = s * 8 + p.val → x0 (ix2 p j) = f (ix2 b j))
    (h1 : ∀ (p : Fin 8) (q : Fin 512) (j : Fin 256) (b : Fin 64), b.val = s * 8 + p.val → x1 (ix3 p q j) = n (ix3 b q j))
    (hi0 : (i 0).val = s * 8 + (y 0).val) (hi1 : (i 1).val = (y 1).val) :
    k0_pay1 (F := Ideal) x0 x1 y = G f n i := by
  obtain ⟨p, q, rfl⟩ : ∃ (p : Fin 8) (q : Fin 512), y = ix2 p q := ⟨y 0, y 1, eq_ix2 y⟩
  obtain ⟨b, k, rfl⟩ : ∃ (b : Fin 64) (k : Fin 512), i = ix2 b k := ⟨i 0, i 1, eq_ix2 i⟩
  have hb : b.val = s * 8 + p.val := hi0
  obtain rfl : k = q := Fin.ext hi1
  rw [pay_apply]
  show _ = distAt f n b k
  unfold distAt
  refine congrArg Ideal.sqrt (Finset.sum_congr rfl fun j _ => ?_)
  rw [h0 p j b hb, h1 p k j b hb]

/-- What grid point t writes back is block t of the distance array of the two argument arrays. -/
theorem flushed_eq (c : Dev nD) (t : Fin cfg0.N) :
    (dat0 V c).flushed 2 t
      = ((cfg0.win 2).blk t).view.read (Elt Ideal) (G (V c main_arg0) (V c main_arg1)) := by
  show (cfg0.win 2).cut (grid0.coords t) ((dat0 V c).after 2 t) = _
  rw [after0_2]
  unfold out0_2
  rw [View.canon_unit_zero hz2]
  simp only [View.ld_unit_zero (S := S8x256) hz2, View.ld_unit_zero (S := S8x512x256) hz3]
  obtain ⟨-, -, -, -, -, e5, e6⟩ := idx_facts t
  funext y
  show k0_pay1 (F := Ideal) (iblk0 V c 0 t) (iblk0 V c 1 t) ((cfg0.win 2).xinj (grid0.coords t) y)
      = G (V c main_arg0) (V c main_arg1) (((cfg0.win 2).blk t).view.emb y)
  refine point_eq (iblk0 V c 0 t) (iblk0 V c 1 t) (V c main_arg0) (V c main_arg1) t.val
    ((cfg0.win 2).xinj (grid0.coords t) y) (((cfg0.win 2).blk t).view.emb y) (feat_blk V c t) (nbr_blk V c t) ?_ ?_
  · show win0_2.index t (0 : Fin 2) * 8 + 1 * (y 0).val = t.val * 8 + (y 0).val; omega
  · show win0_2.index t (1 : Fin 2) * 512 + 1 * (y 1).val = (y 1).val; omega

/-- Every row of the distance array lies in some point's block: row r in point r / 8's. -/
theorem covered (i : S64x512.Idx) :
    ∃ t : Fin cfg0.N, (cfg0.win 2).flush t = true ∧ i ∈ ((cfg0.win 2).blk t).view.set := by
  have hi0 : (i 0).val < 64 := (i 0).isLt
  have hi1 : (i 1).val < 512 := (i 1).isLt
  have hN : grid0.N = 8 := N_0
  obtain ⟨t, ht⟩ : ∃ t : Fin cfg0.N, t.val = (i 0).val / 8 := ⟨⟨(i 0).val / 8, by show (i 0).val / 8 < grid0.N; omega⟩, rfl⟩
  obtain ⟨-, -, -, -, -, e5, e6⟩ := idx_facts t
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 512 ≤ (i 1).val ∧ (i 1).val < win0_2.index t (1 : Fin 2) * 512 + 512; omega

/-- So the write-backs leave the distance array of the two argument arrays. -/
theorem arr_eq_G (c : Dev nD) : (dat0 V c).arrAt 2 cfg0.N = G (V c main_arg0) (V c main_arg1) :=
  (dat0 V c).arrAt_eq_of_cover 2 (G (V c main_arg0) (V c main_arg1)) (fun t _ => flushed_eq V c t) covered

end Blocks

/-! ## The reference's distance is the same function -/

/-- The feature array laid out per neighbour on the reference's side: entry (b, k, j) is f[b, j]. -/
theorem ref_spread_apply (f : Vec Ideal Cert.ReferenceIdeal.S64x256 .f32) (b : Fin 64) (k : Fin 512) (j : Fin 256) :
    broadcastInDim Cert.ReferenceIdeal.S64x512x256 ![0, 1, 2] Cert.ReferenceIdeal.Gen.bcast_S64x1x256_S64x512x256_0_1_2
        (broadcastInDim Cert.ReferenceIdeal.S64x1x256 ![0, 2] Cert.ReferenceIdeal.Gen.bcast_S64x256_S64x1x256_0_2 f) (ix3 b k j)
      = f (ix2 b j) := by
  refine (broadcastInDim_apply _ Cert.ReferenceIdeal.Gen.bcast_S64x1x256_S64x512x256_0_1_2 _ (ix3 b k j) (ix3 b (0 : Fin 1) j) fun a => ?_).trans ?_
  · match a with
    | ⟨0, _⟩ => show b.val = if (64 : Nat) = 1 then 0 else b.val; rw [if_neg (by decide)]
    | ⟨1, _⟩ => show 0 = if (1 : Nat) = 1 then 0 else k.val; rw [if_pos rfl]
    | ⟨2, _⟩ => show j.val = if (256 : Nat) = 1 then 0 else j.val; rw [if_neg (by decide)]
  · refine broadcastInDim_apply _ Cert.ReferenceIdeal.Gen.bcast_S64x256_S64x1x256_0_2 f (ix3 b (0 : Fin 1) j) (ix2 b j) fun a => ?_
    match a with
    | ⟨0, _⟩ => show b.val = if (64 : Nat) = 1 then 0 else b.val; rw [if_neg (by decide)]
    | ⟨1, _⟩ => show j.val = if (256 : Nat) = 1 then 0 else j.val; rw [if_neg (by decide)]

/-- Summing over the last axis at (b, k) inserts the summation coordinate j as the index (b, k, j), on the reference's
    shapes too. -/
theorem ref_lift_eq (hR : Cert.ReferenceIdeal.S64x512x256.Reduces [2] Cert.ReferenceIdeal.S64x512) (b : Fin 64) (k : Fin 512)
    (j : Fin 256) : hR.lift (ix2 b k) j = ix3 b k j :=
  funext fun a => Fin.ext (by match a with | ⟨0, _⟩ => rfl | ⟨1, _⟩ => rfl | ⟨2, _⟩ => rfl)

/-- The reference's distance array is G of its two arguments: the host's sum over the last axis from the initial
    value 0 is the sum over the 256 features, and the two broadcasts read f[b, j] at (b, k, j). -/
theorem dist_eq_G (f : Vec Ideal Cert.ReferenceIdeal.S64x256 .f32) (n : Vec Ideal Cert.ReferenceIdeal.S64x512x256 .f32) :
    Cert.Spec.dist (F := Ideal) f n = G f n := by
  have hR : Cert.ReferenceIdeal.S64x512x256.Reduces [2] Cert.ReferenceIdeal.S64x512 := by decide
  funext i
  obtain ⟨b, k, rfl⟩ : ∃ (b : Fin 64) (k : Fin 512), i = ix2 b k := ⟨i 0, i 1, eq_ix2 i⟩
  unfold Cert.Spec.dist
  show Ideal.sqrt (Ideal.hostReduceAdd Cert.ReferenceIdeal.Gen.reducesTo_S64x512x256_S64x512_d2 _ (Ideal.ofBits .f32 0x00000000#32) (ix2 b k)) = distAt f n b k
  unfold distAt
  refine congrArg Ideal.sqrt ?_
  rw [Ideal.hostReduceAdd_single Cert.ReferenceIdeal.Gen.reducesTo_S64x512x256_S64x512_d2 hR, Ideal.ofBits_zero_f32, zero_add]
  refine Finset.sum_congr rfl fun j _ => ?_
  have e := ref_lift_eq hR b k j
  have s := ref_spread_apply f b k j
  rw [← e] at s
  show (broadcastInDim Cert.ReferenceIdeal.S64x512x256 ![0, 1, 2] Cert.ReferenceIdeal.Gen.bcast_S64x1x256_S64x512x256_0_1_2
        (broadcastInDim Cert.ReferenceIdeal.S64x1x256 ![0, 2] Cert.ReferenceIdeal.Gen.bcast_S64x256_S64x1x256_0_2 f) (hR.lift (ix2 b k) j) - n (hR.lift (ix2 b k) j))
      * (broadcastInDim Cert.ReferenceIdeal.S64x512x256 ![0, 1, 2] Cert.ReferenceIdeal.Gen.bcast_S64x1x256_S64x512x256_0_1_2
        (broadcastInDim Cert.ReferenceIdeal.S64x1x256 ![0, 2] Cert.ReferenceIdeal.Gen.bcast_S64x256_S64x1x256_0_2 f) (hR.lift (ix2 b k) j) - n (hR.lift (ix2 b k) j)) = _
  rw [s, e]

/-- What the first pallas_call's write-backs leave in its output array is the reference's distance array of the launch
    arguments. -/
theorem dist_final (c : Dev nD) :
    (dat0 (V0 m ρ) c).arrAt 2 cfg0.N
    = Cert.Spec.dist (F := Ideal) (m ((c : Thread nD τ).loc main_arg0)) (m ((c : Thread nD τ).loc main_arg1)) := by
  rw [dist_eq_G]
  exact arr_eq_G (V0 m ρ) c

end Cert.DistValue

end
-- ==== Proof.LseValue.lean ====
/-
  The second pallas_call's output array: l[b,k] = M[b,k] + log (∑_c exp (x[b,k,c] - M[b,k])) with M the row maximum.

  Each grid point holds a block of 8 × 256 rows of all 1000 classes and writes back, for each of its rows, the row's
  maximum plus the logarithm of the row's sum of exp (x − maximum). A block's rows are rows of the array at the block's
  offsets, the 8 × 2 blocks tile the 64 × 512 rows, so the array ends as one function G of the class scores; and the
  specification's logsumexp, read entry by entry, is the same G.
-/
import proofs.«420340_j30004641530405_3_alg».proof.Proof.Gen.KernelIdeal.Frame
import proofs.«420340_j30004641530405_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.LseValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The function the array ends holding -/

/-- The maximum of row (b, k): the fold of `max` from −∞ over the 1000 classes. -/
def rowM (x : (⟨3, ![64, 512, 1000]⟩ : Shape).Idx → EReal) (b : Fin 64) (k : Fin 512) : EReal :=
  (Finset.univ : Finset (Fin 1000)).fold max ⊥ (fun c => x (ValueIdx.ix3 b k c))

/-- The logsumexp of row (b, k): M + log (0 + ∑_c exp (x[b,k,c] − M)) with M the row's maximum. -/
def G (x : (⟨3, ![64, 512, 1000]⟩ : Shape).Idx → EReal) : (⟨2, ![64, 512]⟩ : Shape).Idx → EReal :=
  fun j => rowM x (j 0) (j 1) + Ideal.log (0 + ∑ c : Fin 1000, Ideal.exp (x (ValueIdx.ix3 (j 0) (j 1) c) - rowM x (j 0) (j 1)))

/-! ## One block: the payload at an entry

Over a block x0 of 8 × 256 rows of 1000 classes: the row maxima, the maxima as a column, exp (x0 − M) with the column laid
along the classes, the row sums, and the payload M + log S, each read at an entry. -/

/-- The maximum of row (p, q) of a block. -/
def blkM (x0 : FVec Ideal S8x256x1000 .f32) (p : Fin 8) (q : Fin 256) : EReal :=
  (Finset.univ : Finset (Fin 1000)).fold max ⊥ (fun c => x0 (ix3 p q c))

/-- The block's row maxima. -/
abbrev mx (x0 : FVec Ideal S8x256x1000 .f32) : FVec Ideal S8x256 .f32 :=
  multiReduction .maximumf [2] S8x256 x0 0xFF800000#32 reduces_S8x256x1000_S8x256 (.inl rfl) rfl

/-- The row maxima as a column of width one. -/
abbrev mxCol (x0 : FVec Ideal S8x256x1000 .f32) : FVec Ideal S8x256x1 .f32 :=
  shapeCast S8x256x1 (mx x0) shapeCasts_S8x256_S8x256x1

/-- exp (x0 − M), the column of maxima repeated along the classes. -/
abbrev ex (x0 : FVec Ideal S8x256x1000 .f32) : FVec Ideal S8x256x1000 .f32 :=
  Idealize.ShloMosaic.exp (subf x0 (broadcastTo S8x256x1000 (mxCol x0) broadcasts_S8x256x1_S8x256x1000))

/-- The row sums of exp (x0 − M). -/
abbrev sm (x0 : FVec Ideal S8x256x1000 .f32) : FVec Ideal S8x256 .f32 :=
  multiReduction .add [2] S8x256 (ex x0) 0x00000000#32 reduces_S8x256x1000_S8x256 (.inl rfl) rfl

/-- The payload is M + log S, the column of maxima read back as rows. -/
theorem pay_eq (x0 : FVec Ideal S8x256x1000 .f32) :
    k1_pay1 (F := Ideal) x0
      = addf (shapeCast S8x256 (mxCol x0) shapeCasts_S8x256x1_S8x256) (Idealize.ShloMosaic.log (sm x0)) := rfl

/-- Row (p, q) with class c inserted on the last axis. -/
theorem lift_blk (p : Fin 8) (q : Fin 256) (c : Fin 1000) :
    reduces_S8x256x1000_S8x256.lift (ix2 p q) c = ix3 p q c := by
  funext a
  apply Fin.ext
  match a with
  | ⟨0, _⟩ => rfl
  | ⟨1, _⟩ => rfl
  | ⟨2, _⟩ => rfl

/-- The row maxima at (p, q): the fold of max from −∞ over the classes. -/
theorem mx_apply (x0 : FVec Ideal S8x256x1000 .f32) (p : Fin 8) (q : Fin 256) : mx x0 (ix2 p q) = blkM x0 p q := by
  refine (Ideal.multiReduction_maximumf_single x0 0xFF800000#32 reduces_S8x256x1000_S8x256 (.inl rfl) rfl (ix2 p q)).trans ?_
  show (Finset.univ : Finset (Fin 1000)).fold max (Ideal.ofBits .f32 0xFF800000#32)
      (x0 ∘ reduces_S8x256x1000_S8x256.lift (ix2 p q)) = _
  have hb : Ideal.ofBits .f32 0xFF800000#32 = (⊥ : EReal) := by simp [Ideal.ofBits, Ideal.ieee]
  have hf : (x0 ∘ reduces_S8x256x1000_S8x256.lift (ix2 p q)) = fun c : Fin 1000 => x0 (ix3 p q c) :=
    funext fun c => congrArg x0 (lift_blk p q c)
  rw [hb, hf]
  rfl

/-- The column of maxima at (p, q, 0) is the maximum of row (p, q). -/
theorem mxCol_apply (x0 : FVec Ideal S8x256x1000 .f32) (p : Fin 8) (q : Fin 256) (r : Fin 1) :
    mxCol x0 (ix3 p q r) = blkM x0 p q := by
  refine (shapeCast_apply (mx x0) shapeCasts_S8x256_S8x256x1 (ix3 p q r) (ix2 p q) ?_).trans (mx_apply x0 p q)
  rw [Shape.rowMajor_val_two, Shape.rowMajor_val_three]
  show p.val * 256 + q.val = (p.val * 256 + q.val) * 1 + r.val
  have := r.isLt
  omega

/-- The column repeated along the classes reads the row's maximum at every class. -/
theorem bc_apply (x0 : FVec Ideal S8x256x1000 .f32) (p : Fin 8) (q : Fin 256) (c : Fin 1000) :
    broadcastTo S8x256x1000 (mxCol x0) broadcasts_S8x256x1_S8x256x1000 (ix3 p q c) = blkM x0 p q := by
  refine (broadcastTo_apply (mxCol x0) broadcasts_S8x256x1_S8x256x1000 (ix3 p q c) (ix3 p q (0 : Fin 1)) ?_).trans
    (mxCol_apply x0 p q 0)
  intro a
  match a with
  | ⟨0, _⟩ => show p.val = if (8 : Nat) = 1 then 0 else p.val; rw [if_neg (by decide)]
  | ⟨1, _⟩ => show q.val = if (256 : Nat) = 1 then 0 else q.val; rw [if_neg (by decide)]
  | ⟨2, _⟩ => show 0 = if (1 : Nat) = 1 then 0 else c.val; rw [if_pos rfl]

/-- exp (x0 − M) at (p, q, c). -/
theorem ex_apply (x0 : FVec Ideal S8x256x1000 .f32) (p : Fin 8) (q : Fin 256) (c : Fin 1000) :
    ex x0 (ix3 p q c) = Ideal.exp (x0 (ix3 p q c) - blkM x0 p q) := by
  show Ideal.exp (x0 (ix3 p q c) - broadcastTo S8x256x1000 (mxCol x0) broadcasts_S8x256x1_S8x256x1000 (ix3 p q c)) = _
  rw [bc_apply]

/-- The row sums at (p, q). -/
theorem sm_apply (x0 : FVec Ideal S8x256x1000 .f32) (p : Fin 8) (q : Fin 256) :
    sm x0 (ix2 p q) = ∑ c : Fin 1000, Ideal.exp (x0 (ix3 p q c) - blkM x0 p q) := by
  refine (Ideal.multiReduction_add_single (ex x0) 0x00000000#32 reduces_S8x256x1000_S8x256 (.inl rfl) rfl (ix2 p q)).trans ?_
  show ∑ c : Fin 1000, ex x0 (reduces_S8x256x1000_S8x256.lift (ix2 p q) c) = _
  refine Finset.sum_congr rfl fun c _ => ?_
  rw [lift_blk]
  exact ex_apply x0 p q c

/-- M + log S read at an entry, for any two vectors. -/
theorem addf_log_apply {s : Shape} (a b : FVec Ideal s .f32) (i : s.Idx) :
    addf a (Idealize.ShloMosaic.log b) i = a i + Ideal.log (b i) := rfl

/-- The payload at entry (p, q) of the block: the logsumexp of row (p, q). -/
theorem pay_apply_ix (x0 : FVec Ideal S8x256x1000 .f32) (p : Fin 8) (q : Fin 256) :
    k1_pay1 (F := Ideal) x0 (ix2 p q)
      = blkM x0 p q + Ideal.log (∑ c : Fin 1000, Ideal.exp (x0 (ix3 p q c) - blkM x0 p q)) := by
  rw [pay_eq, shapeCast_shapeCast]
  refine (addf_log_apply (mx x0) (sm x0) (ix2 p q)).trans ?_
  rw [mx_apply, sm_apply]

/-- The payload at an entry j of the block: the logsumexp of row (j 0, j 1). -/
theorem pay_apply (x0 : FVec Ideal S8x256x1000 .f32) (j : S8x256.Idx) :
    k1_pay1 (F := Ideal) x0 j
      = blkM x0 (j 0) (j 1) + Ideal.log (∑ c : Fin 1000, Ideal.exp (x0 (ix3 (j 0) (j 1) c) - blkM x0 (j 0) (j 1))) :=
  (congrArg (k1_pay1 (F := Ideal) x0) (eq_ix2 j)).trans (pay_apply_ix x0 (j 0) (j 1))

/-! ## From a block to the array

A block that holds the array's rows a·8 … a·8 + 7, columns b·256 … b·256 + 255 and all classes has, as its payload at
(p, q), the array's logsumexp at (a·8 + p, b·256 + q). -/

/-- The payload of a block of the array x is G x at the entry the block's offsets name. -/
theorem pay_of_block (x : FVec Ideal S64x512x1000 .f32) (x0 : FVec Ideal S8x256x1000 .f32) (a b : Nat)
    (hx : ∀ (y : S8x256x1000.Idx) (i : S64x512x1000.Idx), (i 0).val = a * 8 + 1 * (y 0).val →
      (i 1).val = b * 256 + 1 * (y 1).val → (i 2).val = (y 2).val → x0 y = x i)
    (j : S8x256.Idx) (i : S64x512.Idx) (h0 : (i 0).val = a * 8 + 1 * (j 0).val) (h1 : (i 1).val = b * 256 + 1 * (j 1).val) :
    k1_pay1 (F := Ideal) x0 j = G x i := by
  have hrow : ∀ c : Fin 1000, x0 (ix3 (j 0) (j 1) c) = x (ix3 (i 0) (i 1) c) := fun c =>
    hx (ix3 (j 0) (j 1) c) (ix3 (i 0) (i 1) c) h0 h1 rfl
  have hM : blkM x0 (j 0) (j 1) = rowM x (i 0) (i 1) := by
    unfold blkM rowM
    exact congrArg (Finset.fold max ⊥ · Finset.univ) (funext hrow)
  rw [pay_apply, hM]
  unfold G
  show _ = rowM x (i 0) (i 1) + Ideal.log (0 + ∑ c : Fin 1000, Ideal.exp (x (ix3 (i 0) (i 1) c) - rowM x (i 0) (i 1)))
  rw [zero_add]
  exact congrArg (fun s => rowM x (i 0) (i 1) + Ideal.log s) (Finset.sum_congr rfl fun c _ => by rw [hrow c])

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The two windows' index maps over the grid: the input's block moves with the output's on the two row axes and stays at
    block 0 along the classes. -/
theorem idx_facts : ∀ t : Fin cfg1.N, win1_0.index t (0 : Fin 3) = win1_1.index t (0 : Fin 2)
    ∧ win1_0.index t (1 : Fin 3) = win1_1.index t (1 : Fin 2)
    ∧ win1_0.index t (2 : Fin 3) = 0 :=
  (by decide +kernel : ∀ t : Fin grid1.N, _)

/-- Every block of the output is some point's. -/
theorem idx_onto : ∀ (q0 : Fin 8) (q1 : Fin 2), ∃ t : Fin cfg1.N, win1_1.index t = ![q0.val, q1.val] :=
  (by decide +kernel : ∀ (q0 : Fin 8) (q1 : Fin 2), ∃ t : Fin grid1.N, win1_1.index t = ![q0.val, q1.val])

/-- What point t writes back is block t of G of the class scores as the call finds them. -/
theorem flushed_eq (c : Dev nD) (t : Fin cfg1.N) :
    (dat1 V c).flushed 1 t = ((cfg1.win 1).blk t).view.read (Elt Ideal) (G (V c main_arg3)) := by
  show (cfg1.win 1).cut (grid1.coords t) ((dat1 V c).after 1 t) = _
  rw [after1_1]
  unfold out1_1
  rw [View.canon_unit_zero hz2]
  simp only [View.ld_unit_zero (S := S8x256x1000) hz3]
  obtain ⟨e0, e1, e2⟩ := idx_facts t
  funext j
  refine pay_of_block (V c main_arg3) (iblk1 V c 0 t) (win1_1.index t (0 : Fin 2)) (win1_1.index t (1 : Fin 2))
    (fun y i h0 h1 h2 => ?_) j (((cfg1.win 1).blk t).view.emb j) rfl rfl
  show V c main_arg3 (((cfg1.win 0).blk t).view.emb y) = V c main_arg3 i
  refine congrArg (V c main_arg3) (funext fun a => Fin.ext ?_)
  match a with
  | ⟨0, _⟩ => show win1_0.index t (0 : Fin 3) * 8 + 1 * (y 0).val = (i 0).val; omega
  | ⟨1, _⟩ => show win1_0.index t (1 : Fin 3) * 256 + 1 * (y 1).val = (i 1).val; omega
  | ⟨2, _⟩ => show win1_0.index t (2 : Fin 3) * 1000 + 1 * (y 2).val = (i 2).val; omega

/-- An entry of the array is in point t's block iff each coordinate is in the block's range on its axis. -/
theorem mem_blk (t : Fin cfg1.N) (i : S64x512.Idx) :
    i ∈ ((cfg1.win 1).blk t).view.set ↔ ∀ a : Fin 2, win1_1.index t a * S8x256.size a ≤ (i a).val
      ∧ (i a).val < win1_1.index t a * S8x256.size a + S8x256.size a := by
  show i ∈ ((View.whole main_v1).slice (win1_1.rect t)).set ↔ _
  rw [View.set_slice_whole, Rect.mem_set_unit]
  exact Iff.rfl

/-- Entry (r, q) lies in the block of the point whose block index is (r / 8, q / 256). -/
theorem cover (i : S64x512.Idx) :
    ∃ t : Fin cfg1.N, (cfg1.win 1).flush t = true ∧ i ∈ ((cfg1.win 1).blk t).view.set := by
  have hi0 : (i 0).val < 64 := (i 0).isLt
  have hi1 : (i 1).val < 512 := (i 1).isLt
  obtain ⟨t, ht⟩ := idx_onto ⟨(i 0).val / 8, by omega⟩ ⟨(i 1).val / 256, by omega⟩
  have q0 : win1_1.index t (0 : Fin 2) = (i 0).val / 8 := congrFun ht 0
  have q1 : win1_1.index t (1 : Fin 2) = (i 1).val / 256 := congrFun ht 1
  refine ⟨t, flush1_1 t, ?_⟩
  rw [mem_blk]
  intro a
  match a with
  | ⟨0, _⟩ => show win1_1.index t (0 : Fin 2) * 8 ≤ (i 0).val ∧ (i 0).val < win1_1.index t (0 : Fin 2) * 8 + 8; omega
  | ⟨1, _⟩ => show win1_1.index t (1 : Fin 2) * 256 ≤ (i 1).val ∧ (i 1).val < win1_1.index t (1 : Fin 2) * 256 + 256; omega

/-- The output array after the call: G of the class scores as the call finds them. -/
theorem arr_eq (c : Dev nD) : (dat1 V c).arrAt 1 cfg1.N = G (V c main_arg3) :=
  (dat1 V c).arrAt_eq_of_cover 1 (G (V c main_arg3)) (fun t _ => flushed_eq V c t) cover

/-! ## The reference's side: the specification's logsumexp is G

The specification takes the row maximum as max (−∞, fold of max from −∞), subtracts it along the classes, and adds the
exponentials from 0; read at an entry these are the terms of G. -/

theorem ofBits_ninf : Ideal.ofBits .f32 0xFF800000#32 = (⊥ : EReal) := by simp [Ideal.ofBits, Ideal.ieee]

/-- Row (b, k) with class c put back on the last axis is (b, k, c). -/
theorem lift_arr (h : (⟨3, ![64, 512, 1000]⟩ : Shape).Reduces [2] (⟨2, ![64, 512]⟩ : Shape))
    (b : Fin 64) (k : Fin 512) (c : Fin 1000) : h.lift (ix2 b k) c = ix3 b k c := by
  funext a
  apply Fin.ext
  match a with
  | ⟨0, _⟩ => rfl
  | ⟨1, _⟩ => rfl
  | ⟨2, _⟩ => rfl

/-- The specification's row maximum at (b, k) is the fold of max from −∞ over the classes of that row. -/
theorem rowMax_ix (x : FVec Ideal (⟨3, ![64, 512, 1000]⟩ : Shape) .f32) (b : Fin 64) (k : Fin 512) :
    Cert.Spec.rowMax (F := Ideal) x (ix2 b k) = rowM x b k := by
  have h : (⟨3, ![64, 512, 1000]⟩ : Shape).Reduces [2] (⟨2, ![64, 512]⟩ : Shape) := by decide
  unfold Cert.Spec.rowMax
  refine (maximumf_apply _ _ (ix2 b k)).trans ?_
  rw [Host.reduce_eq_fold_single FloatOps.maximumf x _ _ h _ (ix2 b k),
    broadcastInDim_apply _ _ _ (ix2 b k) (fun a => a.elim0) (fun a => a.elim0)]
  show max (Ideal.ofBits .f32 0xFF800000#32)
      ((Finset.univ : Finset (Fin 1000)).fold max (Ideal.ofBits .f32 0xFF800000#32) (x ∘ h.lift (ix2 b k))) = _
  rw [ofBits_ninf, max_bot_left]
  unfold rowM
  exact congrArg (fun f => Finset.fold max ⊥ f Finset.univ) (funext fun c => congrArg x (lift_arr h b k c))

/-- x − M at (b, k, c): the row's maximum is the same at every class. -/
theorem shifted_ix (x : FVec Ideal (⟨3, ![64, 512, 1000]⟩ : Shape) .f32) (b : Fin 64) (k : Fin 512) (c : Fin 1000) :
    Cert.Spec.shifted (F := Ideal) x (ix3 b k c) = x (ix3 b k c) - rowM x b k := by
  unfold Cert.Spec.shifted
  refine (subf_apply _ _ (ix3 b k c)).trans ?_
  rw [broadcastInDim_apply _ _ _ (ix3 b k c) (ix3 b k (0 : Fin 1)) (fun a => match a with
      | ⟨0, _⟩ => by show b.val = if (64 : Nat) = 1 then 0 else b.val; rw [if_neg (by decide)]
      | ⟨1, _⟩ => by show k.val = if (512 : Nat) = 1 then 0 else k.val; rw [if_neg (by decide)]
      | ⟨2, _⟩ => by show 0 = if (1 : Nat) = 1 then 0 else c.val; rw [if_pos rfl]),
    broadcastInDim_apply _ _ _ (ix3 b k (0 : Fin 1)) (ix2 b k) (fun a => match a with
      | ⟨0, _⟩ => by show b.val = if (64 : Nat) = 1 then 0 else b.val; rw [if_neg (by decide)]
      | ⟨1, _⟩ => by show k.val = if (512 : Nat) = 1 then 0 else k.val; rw [if_neg (by decide)]),
    rowMax_ix]

/-- The specification's row sum at (b, k): 0 plus the sum over the classes of exp (x − M). -/
theorem rowSum_ix (x : FVec Ideal (⟨3, ![64, 512, 1000]⟩ : Shape) .f32) (b : Fin 64) (k : Fin 512) :
    Cert.Spec.rowSum (F := Ideal) x (ix2 b k) = 0 + ∑ c : Fin 1000, Ideal.exp (x (ix3 b k c) - rowM x b k) := by
  have h : (⟨3, ![64, 512, 1000]⟩ : Shape).Reduces [2] (⟨2, ![64, 512]⟩ : Shape) := by decide
  unfold Cert.Spec.rowSum
  simp only [Host.reduceAdd, Ideal.hostReduceAdd_def]
  rw [Ideal.hostReduceAdd_single _ h]
  show Ideal.ofBits .f32 0x00000000#32
      + ∑ c : Fin 1000, Ideal.exp (Cert.Spec.shifted (F := Ideal) x (h.lift (ix2 b k) c)) = _
  rw [Ideal.ofBits_zero_f32]
  refine congrArg (0 + ·) (Finset.sum_congr rfl fun c _ => ?_)
  rw [lift_arr h b k c, shifted_ix]

/-- G at (b, k), its coordinates read. -/
theorem G_ix (x : FVec Ideal (⟨3, ![64, 512, 1000]⟩ : Shape) .f32) (b : Fin 64) (k : Fin 512) :
    G x (ix2 b k) = rowM x b k + Ideal.log (0 + ∑ c : Fin 1000, Ideal.exp (x (ix3 b k c) - rowM x b k)) := rfl

/-- M + log S of the host read at an entry, for any two arrays. -/
theorem addf_hostLog_apply {s : Shape} (a b : FVec Ideal s .f32) (i : s.Idx) :
    addf a (Host.log b) i = a i + Ideal.log (b i) := rfl

/-- The specification's logsumexp is G. -/
theorem lse_eq_G (x : FVec Ideal (⟨3, ![64, 512, 1000]⟩ : Shape) .f32) : Cert.Spec.lse (F := Ideal) x = G x := by
  funext j
  obtain ⟨b, k, rfl⟩ : ∃ (b : Fin 64) (k : Fin 512), j = ix2 b k := ⟨j 0, j 1, eq_ix2 j⟩
  unfold Cert.Spec.lse
  refine (addf_hostLog_apply _ _ (ix2 b k)).trans ?_
  rw [rowMax_ix, rowSum_ix, G_ix]

/-! ## The array after the call -/

variable (m : (ℓ : Loc nD τ sig) → Buf (Elt Ideal) ℓ) (ρ : Dev nD → PrngReg)

/-- The first pallas_call does not write the class scores: the second finds the launch argument. -/
theorem V1_arg3 (c : Dev nD) : V1 m ρ c main_arg3 = m ((c : Thread nD τ).loc main_arg3) :=
  (W1_of_ne m ρ c main_arg3 (by decide)).trans rfl

/-- What the second pallas_call's write-backs leave in its output array is the logsumexp over the classes of the launch
    argument `cls_score`. -/
theorem lse_final (c : Dev nD) :
    (dat1 (V1 m ρ) c).arrAt 1 cfg1.N
    = Cert.Spec.lse (F := Ideal) (m ((c : Thread nD τ).loc main_arg3)) := by
  rw [arr_eq (V1 m ρ) c, V1_arg3 m ρ c]
  exact (lse_eq_G _).symm

end Cert.LseValue

end
-- ==== Proof.CeBridge.lean ====
/-
  The two cross-entropies agree on finite scores: with M the row maximum and S = ∑_c exp (x_c - M),
    (M + log S) - x_t = -((x_t - M) - log S)
  when x_t, M and log S are real numbers; where the target is out of range both sides are +∞ (the fill value reads as -∞:
  a real minus -∞, and the negative of -∞).
-/
import proofs.«420340_j30004641530405_3_alg».proof.Proof.Spec
import Idealize.ShloMosaic.Lib.ValueIdx
import Idealize.ShloMosaic.Lib.Pipeline.Value
import Idealize.ShloMosaic.PureOps.Ideal.Laws

set_option maxRecDepth 16384

noncomputable section

namespace Cert.CeBridge

open Cert.ReferenceIdeal Cert.ReferenceIdeal.Gen Idealize.ShloMosaic

/-! ## Extended reals

Three facts about a row `v` of real numbers, stated over an abstract finite index type: the fold of `max` from `-∞`
over a nonempty family of reals is a real; a finite sum of reals, taken in the extended reals, is the real sum; and the
identity `(m + l) - x = -((x - m) - l)` between reals read as extended reals, with its companion at the fill value
`-∞`: `(m + l) - (-∞) = +∞ = -(-∞)`. -/

/-- The fold of `max` from `-∞` over a nonempty finite family of real numbers is a real number. -/
theorem fold_max_real {ι : Type} (s : Finset ι) (hs : s.Nonempty) (f : ι → EReal)
    (hf : ∀ k, ∃ r : ℝ, f k = (r : EReal)) : ∃ m : ℝ, s.fold max (⊥ : EReal) f = (m : EReal) := by
  have hlt : s.fold max (⊥ : EReal) f < ⊤ :=
    (Finset.fold_max_lt _).2 ⟨bot_lt_top, fun k _ => by obtain ⟨r, hr⟩ := hf k; rw [hr]; exact EReal.coe_lt_top r⟩
  have hgt : (⊥ : EReal) < s.fold max (⊥ : EReal) f := by
    obtain ⟨k, hk⟩ := hs
    exact (Finset.lt_fold_max _).2 (Or.inr ⟨k, hk, by obtain ⟨r, hr⟩ := hf k; rw [hr]; exact EReal.bot_lt_coe r⟩)
  exact ⟨(s.fold max (⊥ : EReal) f).toReal, (EReal.coe_toReal hlt.ne hgt.ne').symm⟩

/-- A finite sum of real numbers, taken in the extended reals, is the real sum. -/
theorem sum_coe {ι : Type} (s : Finset ι) (g : ι → ℝ) :
    (∑ k ∈ s, ((g k : ℝ) : EReal)) = ((∑ k ∈ s, g k : ℝ) : EReal) := by
  classical
  induction s using Finset.induction_on with
  | empty => simp
  | insert a s ha ih => rw [Finset.sum_insert ha, Finset.sum_insert ha, ih, EReal.coe_add]

/-- `(m + l) - x = -((x - m) - l)` for real numbers read as extended reals. -/
theorem ce_real (m l x : ℝ) :
    ((m : EReal) + (l : EReal)) - (x : EReal) = -(((x : EReal) - (m : EReal)) - (l : EReal)) := by
  rw [← EReal.coe_add, ← EReal.coe_sub, ← EReal.coe_sub, ← EReal.coe_sub, ← EReal.coe_neg]
  exact congrArg Real.toEReal (by ring)

/-- At the fill value `-∞`: a real minus `-∞` is `+∞`, and so is the negative of `-∞`. -/
theorem ce_fill (m l : ℝ) : ((m : EReal) + (l : EReal)) - (⊥ : EReal) = -(⊥ : EReal) := by
  rw [← EReal.coe_add, EReal.coe_sub_bot, EReal.neg_bot]

/-- The fill pattern (a NaN's) reads as `-∞`. -/
theorem fill_eq_bot : (Ideal.ofBits .f32 0x7FC00000#32 : EReal) = ⊥ := by simp [Ideal.ofBits, Ideal.ieee]
/-- The pattern of `-∞` reads as `-∞`. -/
theorem ninf_eq_bot : (Ideal.ofBits .f32 0xFF800000#32 : EReal) = ⊥ := by simp [Ideal.ofBits, Ideal.ieee]

/-! ## Indices -/

/-- The index [b,k,0] of a [64,512,1] array over [b,k]. -/
def colIdx (i : S64x512.Idx) : S64x512x1.Idx := fun a => match a with
  | ⟨0, _⟩ => ⟨(i 0).val, (i 0).isLt⟩
  | ⟨1, _⟩ => ⟨(i 1).val, (i 1).isLt⟩
  | ⟨2, _⟩ => ⟨0, Nat.one_pos⟩

/-- The row [b,k] of an index [b,k,c]. -/
def rowOf (o : S64x512x1000.Idx) : S64x512.Idx := fun a => match a with
  | ⟨0, _⟩ => ⟨(o 0).val, (o 0).isLt⟩
  | ⟨1, _⟩ => ⟨(o 1).val, (o 1).isLt⟩

/-- Dropping the class axis of [64,512,1000] leaves [64,512]. -/
theorem hred : S64x512x1000.Reduces [2] S64x512 := by decide

/-- The index [b,k,c] over the row [b,k] lies in that row. -/
theorem row_lift (i : S64x512.Idx) (k : Fin (S64x512x1000.size 2)) : rowOf (hred.lift i k) = i :=
  funext fun a => Fin.ext (by match a with | ⟨0, _⟩ => rfl | ⟨1, _⟩ => rfl)

/-- A [64,512,1] array laid along the classes reads, at [b,k,c], its entry [b,k,0]. -/
theorem up3 (v : FVec Ideal S64x512x1 .f32) (o : S64x512x1000.Idx) :
    broadcastInDim S64x512x1000 ![0, 1, 2] bcast_S64x512x1_S64x512x1000_0_1_2 v o = v (colIdx (rowOf o)) :=
  broadcastInDim_apply _ bcast_S64x512x1_S64x512x1000_0_1_2 v o (colIdx (rowOf o)) (fun a => match a with
    | ⟨0, _⟩ => by show (o 0).val = if (64 : Nat) = 1 then 0 else (o 0).val; rw [if_neg (by decide)]
    | ⟨1, _⟩ => by show (o 1).val = if (512 : Nat) = 1 then 0 else (o 1).val; rw [if_neg (by decide)]
    | ⟨2, _⟩ => by show 0 = if (1 : Nat) = 1 then 0 else (o 2).val; rw [if_pos rfl])

/-- A [64,512] array given a unit class axis reads, at [b,k,0], its entry [b,k]. -/
theorem up2 (w : FVec Ideal S64x512 .f32) (i : S64x512.Idx) :
    broadcastInDim S64x512x1 ![0, 1] bcast_S64x512_S64x512x1_0_1 w (colIdx i) = w i :=
  broadcastInDim_apply _ bcast_S64x512_S64x512x1_0_1 w (colIdx i) i (fun a => match a with
    | ⟨0, _⟩ => by show (i 0).val = if (64 : Nat) = 1 then 0 else (i 0).val; rw [if_neg (by decide)]
    | ⟨1, _⟩ => by show (i 1).val = if (512 : Nat) = 1 then 0 else (i 1).val; rw [if_neg (by decide)])

/-! ## The entry picked along the class axis -/

/-- The gather's dimension numbers: batching axes [0,1] on both sides, the class axis collapsed. -/
abbrev gd : GatherDims S64x512x1000 S64x512x1x1 S64x512x1 := gather_S64x512x1000_S64x512x1x1_S64x512x1_n_2_01_01_2_3_111

/-- The index of the scores that the entry [b,k] picks: [b,k,class index]. -/
def oidx (x4 : IVec S64 32) (i : S64x512.Idx) : S64x512x1000.Idx := gd.operandIdx (colIdx i) (Cert.Spec.clsIdx x4)

/-- Its first coordinate is `b`: axis 0 is a batching axis, so there is no start and no offset on it. -/
theorem oidx_val0 (x4 : IVec S64 32) (i : S64x512.Idx) : ((oidx x4 i) 0).val = (i 0).val := by
  show gd.start (colIdx i) (Cert.Spec.clsIdx x4) 0 + gd.batchCoord (colIdx i) 0 + gd.offCoord (colIdx i) 0 = (i 0).val
  rw [gd.start_batching (colIdx i) (Cert.Spec.clsIdx x4) 0 (by decide),
    gd.offCoord_eq_zero (colIdx i) 0 (fun h => ((gd.mem_sKept 0).1 h).2 (by decide)), Nat.zero_add, Nat.add_zero]
  rfl

/-- Its second coordinate is `k`, likewise. -/
theorem oidx_val1 (x4 : IVec S64 32) (i : S64x512.Idx) : ((oidx x4 i) 1).val = (i 1).val := by
  show gd.start (colIdx i) (Cert.Spec.clsIdx x4) 1 + gd.batchCoord (colIdx i) 1 + gd.offCoord (colIdx i) 1 = (i 1).val
  rw [gd.start_batching (colIdx i) (Cert.Spec.clsIdx x4) 1 (by decide),
    gd.offCoord_eq_zero (colIdx i) 1 (fun h => ((gd.mem_sKept 1).1 h).2 (by decide)), Nat.zero_add, Nat.add_zero]
  rfl

/-- So the picked index lies in the row [b,k]. -/
theorem row_oidx (x4 : IVec S64 32) (i : S64x512.Idx) : rowOf (oidx x4 i) = i :=
  funext fun a => Fin.ext (by match a with | ⟨0, _⟩ => exact oidx_val0 x4 i | ⟨1, _⟩ => exact oidx_val1 x4 i)

/-- The picked entry at [b,k]: `y` at [b,k,class index] where the in-range bit is set, the fill value elsewhere. -/
theorem picked_apply (y : FVec Ideal S64x512x1000 .f32) (x4 : IVec S64 32) (i : S64x512.Idx) :
    Cert.Spec.picked y x4 i
      = Scalar.select (Cert.Spec.clsOk x4 (colIdx i)) (y (oidx x4 i)) (Ideal.ofBits .f32 0x7FC00000#32 : EReal) := by
  unfold Cert.Spec.picked
  refine (shapeCast_apply _ shapeCasts_S64x512x1_S64x512 i (colIdx i) ?_).trans rfl
  rewrite [Shape.rowMajor_val_three, Shape.rowMajor_val_two]
  show ((i 0).val * 512 + (i 1).val) * 1 + 0 = (i 0).val * 512 + (i 1).val
  omega

/-! ## The pointwise operations read at an index

Each is stated over ARBITRARY operands, so that it is a fact about the operation alone. -/

/-- The maximum of two arrays at an index. -/
theorem max_at (c R : FVec Ideal S64x512 .f32) (i : S64x512.Idx) : maximumf c R i = max (c i : EReal) (R i) := rfl

/-- The array filled with `-∞` reads `-∞` everywhere. -/
theorem ninf_at (i : S64x512.Idx) :
    broadcastInDim S64x512 ![] bcast_S_S64x512 (constant (F := Ideal) S_ .f32 0xFF800000#32) i
      = (Ideal.ofBits .f32 0xFF800000#32 : EReal) := rfl

/-- `x - M` at [b,k,c], with `M` a [64,512] array laid along the classes: `x[b,k,c] - M[b,k]`. -/
theorem shifted_at (x : FVec Ideal S64x512x1000 .f32) (M : FVec Ideal S64x512 .f32) (o : S64x512x1000.Idx) :
    subf x (broadcastInDim S64x512x1000 ![0, 1, 2] bcast_S64x512x1_S64x512x1000_0_1_2
      (broadcastInDim S64x512x1 ![0, 1] bcast_S64x512_S64x512x1_0_1 M)) o = (x o : EReal) - M (rowOf o) := by
  show (x o : EReal) - broadcastInDim S64x512x1000 ![0, 1, 2] bcast_S64x512x1_S64x512x1000_0_1_2
      (broadcastInDim S64x512x1 ![0, 1] bcast_S64x512_S64x512x1_0_1 M) o = _
  rw [up3, up2]

/-- `y - log S` at [b,k,c], with `S` a [64,512] array laid along the classes: `y[b,k,c] - log S[b,k]`. -/
theorem sublog_at (y : FVec Ideal S64x512x1000 .f32) (S : FVec Ideal S64x512 .f32) (o : S64x512x1000.Idx) :
    subf y (broadcastInDim S64x512x1000 ![0, 1, 2] bcast_S64x512x1_S64x512x1000_0_1_2
      (Host.log (F := Ideal) (broadcastInDim S64x512x1 ![0, 1] bcast_S64x512_S64x512x1_0_1 S))) o
      = (y o : EReal) - Ideal.log (S (rowOf o)) := by
  show (y o : EReal) - broadcastInDim S64x512x1000 ![0, 1, 2] bcast_S64x512x1_S64x512x1000_0_1_2
      (Host.log (F := Ideal) (broadcastInDim S64x512x1 ![0, 1] bcast_S64x512_S64x512x1_0_1 S)) o = _
  rw [up3]
  show (y o : EReal)
      - Ideal.log (broadcastInDim S64x512x1 ![0, 1] bcast_S64x512_S64x512x1_0_1 S (colIdx (rowOf o))) = _
  rw [up2]

/-- The exponential of an array at an index. -/
theorem exp_at (y : FVec Ideal S64x512x1000 .f32) (o : S64x512x1000.Idx) : Host.exp y o = Ideal.exp (y o) := rfl

/-- The sum over the classes from the initial value `0`, at [b,k]: the initial value plus `∑_c y[b,k,c]`. -/
theorem reduceAdd_at (y : FVec Ideal S64x512x1000 .f32) (i : S64x512.Idx) :
    Host.reduceAdd y (constant (F := Ideal) S_ .f32 0x00000000#32) reducesTo_S64x512x1000_S64x512_d2 h_S_ i
      = (Ideal.ofBits .f32 0x00000000#32 : EReal) + ∑ k : Fin (S64x512x1000.size 2), y (hred.lift i k) := by
  simp only [Host.reduceAdd, Ideal.hostReduceAdd_def]
  rw [Ideal.hostReduceAdd_single reducesTo_S64x512x1000_S64x512_d2 hred]
  rfl

/-- `(a + log b) - p` at an index. -/
theorem ceK_at (a b p : FVec Ideal S64x512 .f32) (i : S64x512.Idx) :
    subf (addf a (Host.log b)) p i = ((a i : EReal) + Ideal.log (b i)) - p i := rfl

/-- `-p` at an index. -/
theorem ceR_at (p : FVec Ideal S64x512 .f32) (i : S64x512.Idx) : Host.negf p i = -(p i : EReal) := rfl

/-! ## The row maximum, the row sum and log_softmax on real scores -/

/-- The row maximum at [b,k]: `max (-∞) (fold of max from -∞ over the classes of x[b,k,·])`. -/
theorem rowMax_eq (x3 : FVec Ideal S64x512x1000 .f32) (i : S64x512.Idx) :
    Cert.Spec.rowMax x3 i
      = max (Ideal.ofBits .f32 0xFF800000#32 : EReal)
          ((Finset.univ : Finset (Fin (S64x512x1000.size 2))).fold max (Ideal.ofBits .f32 0xFF800000#32 : EReal)
            (x3 ∘ hred.lift i)) := by
  unfold Cert.Spec.rowMax
  rw [max_at, ninf_at,
    Host.reduce_eq_fold_single FloatOps.maximumf x3 _ reducesTo_S64x512x1000_S64x512_d2 hred h_S_ i]
  rfl

/-- The row maximum of real scores is a real number. -/
theorem rowMax_real (x3 : FVec Ideal S64x512x1000 .f32) (hfin : ∀ o, ∃ r : ℝ, x3 o = (r : EReal)) (i : S64x512.Idx) :
    ∃ m : ℝ, Cert.Spec.rowMax x3 i = (m : EReal) := by
  obtain ⟨m, hm⟩ := fold_max_real (Finset.univ : Finset (Fin (S64x512x1000.size 2)))
    ⟨⟨0, by decide⟩, Finset.mem_univ _⟩ (x3 ∘ hred.lift i) (fun k => hfin _)
  refine ⟨m, ?_⟩
  rw [rowMax_eq, ninf_eq_bot, hm]
  exact max_eq_right bot_le

/-- The row sum of `exp (x - M)` over real scores is a positive real number. -/
theorem rowSum_pos (x3 : FVec Ideal S64x512x1000 .f32) (hfin : ∀ o, ∃ r : ℝ, x3 o = (r : EReal)) (i : S64x512.Idx) :
    ∃ s : ℝ, 0 < s ∧ Cert.Spec.rowSum x3 i = (s : EReal) := by
  obtain ⟨m, hm⟩ := rowMax_real x3 hfin i
  choose r hr using hfin
  have ht : ∀ k : Fin (S64x512x1000.size 2),
      (Host.exp (Cert.Spec.shifted x3)) (hred.lift i k) = ((Real.exp (r (hred.lift i k) - m) : ℝ) : EReal) := by
    intro k
    unfold Cert.Spec.shifted
    rw [exp_at, shifted_at, row_lift, hr, hm, ← EReal.coe_sub, Ideal.exp_coe]
  refine ⟨∑ k : Fin (S64x512x1000.size 2), Real.exp (r (hred.lift i k) - m),
    Finset.sum_pos (fun k _ => Real.exp_pos _) ⟨⟨0, by decide⟩, Finset.mem_univ _⟩, ?_⟩
  unfold Cert.Spec.rowSum
  rw [reduceAdd_at, Ideal.ofBits_zero_f32, zero_add]
  exact (Finset.sum_congr rfl (fun k _ => ht k)).trans (sum_coe _ _)

/-- log_softmax at [b,k,c]: `(x - M[b,k]) - log S[b,k]`. -/
theorem logSoftmax_apply (x3 : FVec Ideal S64x512x1000 .f32) (o : S64x512x1000.Idx) :
    Cert.Spec.logSoftmax x3 o
      = ((x3 o : EReal) - Cert.Spec.rowMax x3 (rowOf o)) - Ideal.log (Cert.Spec.rowSum x3 (rowOf o)) := by
  unfold Cert.Spec.logSoftmax Cert.Spec.shifted
  rw [sublog_at, shifted_at]

/-- On scores that are all real numbers the kernel's cross-entropy from the logsumexp array is the reference's. -/
theorem ce_eq (x3 : FVec Ideal S64x512x1000 .f32) (x4 : IVec S64 32) (hfin : ∀ i, ∃ r : ℝ, x3 i = (r : EReal)) :
    Cert.Spec.ceK (F := Ideal) (Cert.Spec.lse x3) x3 x4 = Cert.Spec.ceR x3 x4 := by
  funext i
  obtain ⟨m, hm⟩ := rowMax_real x3 hfin i
  obtain ⟨s, hs, hS⟩ := rowSum_pos x3 hfin i
  have hl : Ideal.log (Cert.Spec.rowSum x3 i) = ((Real.log s : ℝ) : EReal) := by
    rw [hS, Ideal.log_coe, if_neg (not_le.2 hs)]
  unfold Cert.Spec.ceK Cert.Spec.ceR Cert.Spec.lse
  rw [ceK_at, ceR_at, picked_apply, picked_apply, hm, hl]
  by_cases hb : Cert.Spec.clsOk x4 (colIdx i) = 1#1
  · rw [hb, ValueIdx.select_one, ValueIdx.select_one, logSoftmax_apply, row_oidx, hm, hl]
    obtain ⟨x, hx⟩ := hfin (oidx x4 i)
    rw [hx]
    exact ce_real m (Real.log s) x
  · rw [ValueIdx.eq_zero_of_ne_one hb, ValueIdx.select_zero, ValueIdx.select_zero, fill_eq_bot]
    exact ce_fill m (Real.log s)

end Cert.CeBridge

end
-- ==== Proof.Finite.lean ====
/-
  The precondition makes every score a real number: `finite_inputs` says |x| < +∞ at every entry of every float input, and
  an extended real whose absolute value is below +∞ is a real.
-/
import proofs.«420340_j30004641530405_3_alg».proof.Defs
import proofs.«420340_j30004641530405_3_alg».proof.Proof.Gen.Pre_finite_inputs
import proofs.«420340_j30004641530405_3_alg».proof.Proof.Gen.KernelIdeal
import Idealize.ShloMosaic.Lib.ReduceAll
import Idealize.ShloMosaic.Lib.ValueIdx
import Idealize.ShloMosaic.PureOps.Ideal.Laws

set_option maxRecDepth 16384

noncomputable section

namespace Cert.Finite

open Idealize.ShloMosaic Idealize.SL.Sem

instance : Subsingleton Cert.Pre_finite_inputs.S_.Idx := ⟨fun a b => funext fun d => d.elim0⟩

/-- An extended real whose absolute value max x (-x) lies below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- Under the precondition every entry of `cls_score` is a real number. -/
theorem cls_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, (m ((c.tc : Thread Cert.KernelIdeal.nD Cert.KernelIdeal.τ).loc Cert.KernelIdeal.main_arg3)
      : FVec Ideal Cert.KernelIdeal.S64x512x1000 .f32) i = (r : EReal) := by
  intro i
  have h0 := congrFun (h c) ValueIdx.ix0
  dsimp only [Cert.Pre_finite_inputs.fn, Cert.Pre_finite_inputs.fn_part1] at h0
  have h1 := (IntOp.andi_eq_one.1 h0).2
  have h2 := Host.reduce_andi_all _ _ _ _ _ h1 i
  have e : Ideal.ofBits .f32 0x7F800000#32 = (⊤ : EReal) := by simp [Ideal.ofBits, Ideal.ieee]
  have key : ∀ x : EReal, Ideal.cmp .olt (max x (-x)) (Ideal.ofBits .f32 0x7F800000#32) = 1#1 → ∃ r : ℝ, x = (r : EReal) := by
    intro x hx
    rw [e] at hx
    refine real_of_abs_lt_top x ?_
    by_contra hn
    simp [Ideal.cmp, hn] at hx
  exact key ((m ((c.tc : Thread Cert.KernelIdeal.nD Cert.KernelIdeal.τ).loc Cert.KernelIdeal.main_arg3)
      : FVec Ideal Cert.KernelIdeal.S64x512x1000 .f32) i) h2

end Cert.Finite

end
-- ==== Proof.lean ====
/-
  The certificate's claims.

  Both programs return  ∑_{b,k} [k < len b] (-w·d)[b,k] + ∑_{b,k} ρ[b,k] · ce[b,k]  with d the distance of each sample's
  feature to its neighbours, ρ the masked softmax of -w·d along the neighbours and ce a per-neighbour cross-entropy.
  The kernel program computes d in one pallas_call (the same sum of squares and square root, block by block), the
  logsumexp l = M + log ∑ exp (x - M) in a second, and takes ce = l - x[target]; the reference takes
  ce = -((x - M) - log ∑ exp (x - M))[target]. On finite scores M and the log of the sum are real numbers and the two
  cross-entropies are the same real; where the target is out of range both are +∞. Everything after d and ce is one
  expression (`Spec.Tail`) on both sides and is never opened.
-/
import proofs.«420340_j30004641530405_3_alg».proof.Defs
import proofs.«420340_j30004641530405_3_alg».proof.Proof.Gen.Kernel
import proofs.«420340_j30004641530405_3_alg».proof.Proof.Gen.Kernel.Skeleton
import proofs.«420340_j30004641530405_3_alg».proof.Proof.Gen.Kernel.Launch
import proofs.«420340_j30004641530405_3_alg».proof.Proof.Gen.Kernel.Points
import proofs.«420340_j30004641530405_3_alg».proof.Proof.Gen.Kernel.Frame
import proofs.«420340_j30004641530405_3_alg».proof.Proof.Gen.KernelIdeal
import proofs.«420340_j30004641530405_3_alg».proof.Proof.Gen.KernelIdeal.Skeleton
import proofs.«420340_j30004641530405_3_alg».proof.Proof.Gen.KernelIdeal.Launch
import proofs.«420340_j30004641530405_3_alg».proof.Proof.Gen.KernelIdeal.Points
import proofs.«420340_j30004641530405_3_alg».proof.Proof.Gen.KernelIdeal.Frame
import proofs.«420340_j30004641530405_3_alg».proof.Proof.Gen.ReferenceIdeal
import proofs.«420340_j30004641530405_3_alg».proof.Proof.Gen.Pre_finite_inputs
import proofs.«420340_j30004641530405_3_alg».proof.Proof.KernelTail
import proofs.«420340_j30004641530405_3_alg».proof.Proof.RefValue
import proofs.«420340_j30004641530405_3_alg».proof.Proof.DistValue
import proofs.«420340_j30004641530405_3_alg».proof.Proof.LseValue
import proofs.«420340_j30004641530405_3_alg».proof.Proof.CeBridge
import proofs.«420340_j30004641530405_3_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.RefValue.run (F := Ideal) m ρ)

/-- Both runs end at the closing expression of the reference's distance and cross-entropy of the (agreeing) arguments: the
    kernel's two arrays are the distance and the logsumexp, and on finite scores l - x[target] is -(log_softmax x)[target]. -/
theorem algebraic : Cert.algebraic_KernelIdeal_ReferenceIdeal := by
  intro m ρ m' ρ' hpre hagree
  refine ⟨fun c => Cert.Spec.Tail (F := Ideal)
      (Cert.Spec.dist (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (Cert.Spec.ceR (m ((c.tc : Thread Cert.KernelIdeal.nD Cert.KernelIdeal.τ).loc Cert.KernelIdeal.main_arg3))
        (m ((c.tc : Thread Cert.KernelIdeal.nD Cert.KernelIdeal.τ).loc Cert.KernelIdeal.main_arg4)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.Result.run (F := Ideal) m ρ)
    rw [Cert.DistValue.dist_final m ρ c, Cert.LseValue.lse_final m ρ c,
      Cert.CeBridge.ce_eq _ _ (Cert.Finite.cls_real m hpre c)]
  · refine (θ_run Cert.ReferenceIdeal.defs _ _).mono (fun r h c => ⟨(h c).1.trans ?_, (h c).2⟩)
      (Cert.RefValue.run (F := Ideal) m' ρ')
    rw [(hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
